-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512 : Shape := ⟨2, ![1, 512]⟩
abbrev S32768x512 : Shape := ⟨2, ![32768, 512]⟩
abbrev S512x1536 : Shape := ⟨2, ![512, 1536]⟩
abbrev S1536 : Shape := ⟨1, ![1536]⟩
abbrev S512x512 : Shape := ⟨2, ![512, 512]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512x512 .f32) (main_arg8 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  main_v43

def fn_part1 {F : FTy → Type} [FloatOps F] (main_arg4 : FVec F S512x1536 .f32) (main_arg5 : FVec F S512x1536 .f32) (main_arg6 : FVec F S1536 .f32) (main_arg7 : FVec F S512x512 .f32) (main_arg8 : FVec F S512x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S512x1536 .f32 := Host.absf main_arg4
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_v33

def fn {F : FTy → Type} [FloatOps F] (main_arg0 : FVec F S1x512 .f32) (main_arg1 : FVec F S32768x512 .f32) (main_arg2 : FVec F S1x512 .f32) (main_arg3 : FVec F S1x512 .f32) (main_arg4 : FVec F S512x1536 .f32) (main_arg5 : FVec F S512x1536 .f32) (main_arg6 : FVec F S1536 .f32) (main_arg7 : FVec F S512x512 .f32) (main_arg8 : FVec F S512x512 .f32) : IVec S_ 1 :=
  let main_v0 : FVec F S1x512 .f32 := Host.absf main_arg0
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_v13 main_v16
-- ==== Kernel.lean ====
abbrev S1x512 : Shape := ⟨2, ![1, 512]⟩
abbrev S32768x512 : Shape := ⟨2, ![32768, 512]⟩
abbrev S512x1536 : Shape := ⟨2, ![512, 1536]⟩
abbrev S1536 : Shape := ⟨1, ![1536]⟩
abbrev S512x512 : Shape := ⟨2, ![512, 512]⟩
abbrev S1x1536 : Shape := ⟨2, ![1, 1536]⟩
abbrev S2048x512 : Shape := ⟨2, ![2048, 512]⟩
abbrev S512 : Shape := ⟨1, ![512]⟩

abbrev nBuf : Space → Nat
  | .hbm => 12
  | .vmem => 17
  | .smem => 0
  | _ => 0

abbrev bufTy : (tb : Table) → Fin (tcTables nBuf tb) → BufTy
  | .hbm, ⟨0, _⟩ => ⟨S1x512, .f32⟩
  | .hbm, ⟨1, _⟩ => ⟨S32768x512, .f32⟩
  | .hbm, ⟨2, _⟩ => ⟨S1x512, .f32⟩
  | .hbm, ⟨3, _⟩ => ⟨S1x512, .f32⟩
  | .hbm, ⟨4, _⟩ => ⟨S512x1536, .f32⟩
  | .hbm, ⟨5, _⟩ => ⟨S512x1536, .f32⟩
  | .hbm, ⟨6, _⟩ => ⟨S1536, .f32⟩
  | .hbm, ⟨7, _⟩ => ⟨S512x512, .f32⟩
  | .hbm, ⟨8, _⟩ => ⟨S512x512, .f32⟩
  | .hbm, ⟨9, _⟩ => ⟨S1x1536, .f32⟩
  | .hbm, ⟨10, _⟩ => ⟨S1x512, .f32⟩
  | .hbm, ⟨11, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S512x1536, .f32⟩
  | .local _ .vmem, ⟨3, _⟩ => ⟨S512x1536, .f32⟩
  | .local _ .vmem, ⟨4, _⟩ => ⟨S1x1536, .f32⟩
  | .local _ .vmem, ⟨5, _⟩ => ⟨S512x512, .f32⟩
  | .local _ .vmem, ⟨6, _⟩ => ⟨S512x512, .f32⟩
  | .local _ .vmem, ⟨7, _⟩ => ⟨S2048x512, .f32⟩
  | .local _ .vmem, ⟨8, _⟩ => ⟨S2048x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  shapeCasts_S1536_S1x1536 : S1536.ShapeCasts S1x1536
  inb_S1x512_S1x512_0_0 : ∀ a, (![0, 0] : Fin 2 → Nat) a + S1x512.size a ≤ S1x512.size a
  h_S1x512 : 0 < S1x512.numel
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  inb_S512x512_S512x512_0_0 : ∀ a, (![0, 0] : Fin 2 → Nat) a + S512x512.size a ≤ S512x512.size a
  h_S512x512 : 0 < S512x512.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  slices_S1x1536_o0_0_S1x512 : S1x1536.Slices ![0, 0] S1x512
  slices_S1x1536_o0_512_S1x512 : S1x1536.Slices ![0, 512] S1x512
  slices_S1x1536_o0_1024_S1x512 : S1x1536.Slices ![0, 1024] S1x512
  shapeCasts_S1x512_S1x512 : S1x512.ShapeCasts S1x512
  inb_S2048x512_S2048x512_0_0 : ∀ a, (![0, 0] : Fin 2 → Nat) a + S2048x512.size a ≤ S2048x512.size a
  h_S2048x512 : 0 < S2048x512.numel
  broadcasts_S1x512_S2048x512 : S1x512.Broadcasts S2048x512
  reduces_S2048x512_S512 : S2048x512.Reduces [0] S512
  shapeCasts_S512_S1x512 : S512.ShapeCasts S1x512
  dot_S1x512_S512x1536_S1x1536_1_0_0_1_n_n_wf : DotDims.WF S1x512 S512x1536 S1x1536 [1] [0] [0] [1] [] []
  dot_S1x512_S512x512_S1x512_1_0_0_1_n_n_wf : DotDims.WF S1x512 S512x512 S1x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .f32 = 32 ∨ (Rect.block (s := S512x1536) S512x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .f32 = 32 ∨ (Rect.block (s := S512x1536) S512x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S32768x512.size a
  hwx0_7 : ∀ i : grid0.Coords, EltTy.bits .f32 = 32 ∨ (Rect.block (s := S32768x512) S2048x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)

variable [Facts₀]

def dot_S1x512_S512x1536_S1x1536_1_0_0_1_n_n : DotDims S1x512 S512x1536 S1x1536 where
  lhsContracting := [1]
  rhsContracting := [0]
  lhsNonContracting := [0]
  rhsNonContracting := [1]
  lhsBatch := []
  rhsBatch := []
  wf := dot_S1x512_S512x1536_S1x1536_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S1x512.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S1x512.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1x512 : Shape := ⟨2, ![1, 512]⟩
abbrev S32768x512 : Shape := ⟨2, ![32768, 512]⟩
abbrev S512x1536 : Shape := ⟨2, ![512, 1536]⟩
abbrev S1536 : Shape := ⟨1, ![1536]⟩
abbrev S512x512 : Shape := ⟨2, ![512, 512]⟩
abbrev S1x1536 : Shape := ⟨2, ![1, 1536]⟩
abbrev S_ : Shape := ⟨0, ![]⟩
abbrev S32769x512 : Shape := ⟨2, ![32769, 512]⟩
abbrev S512 : Shape := ⟨1, ![512]⟩

abbrev nBuf : Space → Nat
  | .hbm => 63
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S32768x512, .f32⟩
  | .hbm, ⟨2, _⟩ => ⟨S1x512, .f32⟩
  | .hbm, ⟨3, _⟩ => ⟨S1x512, .f32⟩
  | .hbm, ⟨4, _⟩ => ⟨S512x1536, .f32⟩
  | .hbm, ⟨5, _⟩ => ⟨S512x1536, .f32⟩
  | .hbm, ⟨6, _⟩ => ⟨S1536, .f32⟩
  | .hbm, ⟨7, _⟩ => ⟨S512x512, .f32⟩
  | .hbm, ⟨8, _⟩ => ⟨S512x512, .f32⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S1x1536, .f32⟩
  | .hbm, ⟨13, _⟩ => ⟨S1x1536, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S_, .f32⟩
  | .hbm, ⟨41, _⟩ => ⟨S32768x512, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S32769x512, .f32⟩
  | .hbm, ⟨47, _⟩ => ⟨S32769x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S1x512, .f32⟩
  | .hbm, ⟨53, _⟩ => ⟨S1x512, .f32⟩
  | .hbm, ⟨54, _⟩ => ⟨S32769x512, .f32⟩
  | .hbm, ⟨55, _⟩ => ⟨S32769x512, .f32⟩
  | .hbm, ⟨56, _⟩ => ⟨S32769x512, .f32⟩
  | .hbm, ⟨57, _⟩ => ⟨S32769x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S1x512, .f32⟩
  | .hbm, ⟨62, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S1536_S1x1536_1 : S1536.BroadcastsInDim S1x1536 (![1] : Fin 1 → Fin S1x1536.rank)
  slices_S1x1536_S1x512_0_0 : S1x1536.Slices ![0, 0] S1x512
  slices_S1x1536_S1x512_0_512 : S1x1536.Slices ![0, 512] S1x512
  slices_S1x1536_S1x512_0_1024 : S1x1536.Slices ![0, 1024] S1x512
  bcast_S_S1x512 : S_.BroadcastsInDim S1x512 (![] : Fin 0 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  concatenates_S1x512_S32768x512_S32769x512_d0 : Shape.Concatenates [S1x512, S32768x512] S32769x512 0
  reducesTo_S32769x512_S512_d0 : S32769x512.ReducesTo [0] S512
  h_S_ : 0 < S_.numel
  bcast_S512_S1x512_1 : S512.BroadcastsInDim S1x512 (![1] : Fin 1 → Fin S1x512.rank)
  bcast_S1x512_S32769x512_0_1 : S1x512.BroadcastsInDim S32769x512 (![0, 1] : Fin 2 → Fin S32769x512.rank)
  dot_S1x512_S512x1536_S1x1536_1_0_0_1_n_n_wf : DotDims.WF S1x512 S512x1536 S1x1536 [1] [0] [0] [1] [] []
  dot_S1x512_S512x512_S1x512_1_0_0_1_n_n_wf : DotDims.WF S1x512 S512x512 S1x512 [1] [0] [0] [1] [] []
  dot_S32768x512_S512x512_S32768x512_1_0_0_1_n_n_wf : DotDims.WF S32768x512 S512x512 S32768x512 [1] [0] [0] [1] [] []

variable [Facts₀]

def dot_S1x512_S512x1536_S1x1536_1_0_0_1_n_n : DotDims S1x512 S512x1536 S1x1536 where
  lhsContracting := [1]
  rhsContracting := [0]
  lhsNonContracting := [0]
  rhsNonContracting := [1]
  lhsBatch := []
  rhsBatch := []
  wf := dot_S1x512_S512x1536_S1x1536_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Spec.lean ====
/-
  The cell merge, written once as plain functions on the extended reals.

  From an input row x, a previous hidden row h, 32768 child cells c (one row each), the gate weights
  Wih, Whh with bias b, and the attention weights Ai, Ah:
    gate   = h·Whh + b + x·Wih                       (1536 columns: input, output and candidate gates)
    i, o   = logistic of the first and second 512 columns,  g = tanh of the last 512
    alpha  = logistic (x·Ai + c·Ah)                  (one row per child)
    c₁     = (Σ_r c_r · e^{alpha_r} + g · e^{i}) / (Σ_r e^{alpha_r} + e^{i} + ε)
    h₁     = o · tanh c₁
  This is a softmax-weighted average over the 32769 rows (g, c_0, …, c_32767) with logits
  (i, alpha_0, …); `refC1` below is the same average written the other way round: every weight
  divided by the normaliser first, then the weighted rows summed.
-/
import Idealize.ShloMosaic.PureOps.Ideal
import Idealize.ShloMosaic.Lib.ValueIdx

noncomputable section

open scoped BigOperators

namespace Cert.Merge

open Idealize.ShloMosaic Idealize.ShloMosaic.ValueIdx

/-- A row of 512 numbers. -/
abbrev Row := (⟨2, ![1, 512]⟩ : Shape).Idx → EReal
/-- The 32768 child cells, one row each. -/
abbrev Cells := (⟨2, ![32768, 512]⟩ : Shape).Idx → EReal
/-- A gate weight matrix, 512 by 1536. -/
abbrev GateMat := (⟨2, ![512, 1536]⟩ : Shape).Idx → EReal
/-- The gate bias, 1536 numbers. -/
abbrev GateBias := (⟨1, ![1536]⟩ : Shape).Idx → EReal
/-- An attention weight matrix, 512 by 512. -/
abbrev AttMat := (⟨2, ![512, 512]⟩ : Shape).Idx → EReal

/-- The small positive number added to the normaliser (the float nearest to 1e-12). -/
def eps : EReal := Ideal.ofBits .f32 0x2B8CBCCC#32

section
variable (x h : Row) (c : Cells) (Wih Whh : GateMat) (b : GateBias) (Ai Ah : AttMat)

/-- Column j of the gate pre-activations: (h·Whh + b) + x·Wih. -/
def gate (j : Fin 1536) : EReal :=
  ((∑ k : Fin 512, h (ix2 (0 : Fin 1) k) * Whh (ix2 k j)) + b (ix1 j)) + ∑ k : Fin 512, x (ix2 (0 : Fin 1) k) * Wih (ix2 k j)

/-- The input gate, the logistic of columns 0 … 511. -/
def gI (j : Fin 512) : EReal := Ideal.logistic (gate x h Wih Whh b ⟨j.val, by omega⟩)
/-- The output gate, the logistic of columns 512 … 1023. -/
def gO (j : Fin 512) : EReal := Ideal.logistic (gate x h Wih Whh b ⟨512 + j.val, by omega⟩)
/-- The candidate, tanh of columns 1024 … 1535. -/
def gG (j : Fin 512) : EReal := Ideal.tanh (gate x h Wih Whh b ⟨1024 + j.val, by omega⟩)

/-- The input's share of every child's attention logit: x·Ai. -/
def awi (j : Fin 512) : EReal := ∑ k : Fin 512, x (ix2 (0 : Fin 1) k) * Ai (ix2 k j)

/-- Child r's unnormalised weight in column j: e^{logistic (x·Ai + c_r·Ah)}. -/
def ew (r : Fin 32768) (j : Fin 512) : EReal :=
  Ideal.exp (Ideal.logistic (awi x Ai j + ∑ k : Fin 512, c (ix2 r k) * Ah (ix2 k j)))

/-- The normaliser: the children's weights, the candidate's weight e^{i}, and ε. -/
def den (j : Fin 512) : EReal :=
  ((∑ r : Fin 32768, ew x c Ai Ah r j) + Ideal.exp (gI x h Wih Whh b j)) + eps

/-- The weighted sum of the rows: the children's cells and the candidate. -/
def num (j : Fin 512) : EReal :=
  (∑ r : Fin 32768, c (ix2 r j) * ew x c Ai Ah r j) + gG x h Wih Whh b j * Ideal.exp (gI x h Wih Whh b j)

/-- The merged cell. -/
def c1 (j : Fin 512) : EReal := Ideal.div (num x h c Wih Whh b Ai Ah j) (den x h c Wih Whh b Ai Ah j)
/-- The new hidden state. -/
def h1 (j : Fin 512) : EReal := gO x h Wih Whh b j * Ideal.tanh (c1 x h c Wih Whh b Ai Ah j)

/-- The merged cell as a row. -/
def C1 : Row := fun i => c1 x h c Wih Whh b Ai Ah (i 1)
/-- The new hidden state as a row. -/
def H1 : Row := fun i => h1 x h c Wih Whh b Ai Ah (i 1)

/-! The same average with the 32769 rows stacked: row 0 is the candidate, row r + 1 child r. -/

/-- Row k's unnormalised weight. -/
def Wk (k : Fin 32769) (j : Fin 512) : EReal :=
  if hk : k.val = 0 then Ideal.exp (gI x h Wih Whh b j) else ew x c Ai Ah ⟨k.val - 1, by omega⟩ j
/-- Row k's value. -/
def Mk (k : Fin 32769) (j : Fin 512) : EReal :=
  if hk : k.val = 0 then gG x h Wih Whh b j else c (ix2 (⟨k.val - 1, by omega⟩ : Fin 32768) j)
/-- The normaliser summed over the stacked rows from zero, then ε. -/
def refDen (j : Fin 512) : EReal := ((0 : EReal) + ∑ k : Fin 32769, Wk x h c Wih Whh b Ai Ah k j) + eps
/-- Every weight normalised first, then the weighted rows summed from zero. -/
def refC1 (j : Fin 512) : EReal :=
  (0 : EReal) + ∑ k : Fin 32769, Mk x h c Wih Whh b k j * Ideal.div (Wk x h c Wih Whh b Ai Ah k j) (refDen x h c Wih Whh b Ai Ah j)
/-- The hidden state over that cell. -/
def refH1 (j : Fin 512) : EReal := gO x h Wih Whh b j * Ideal.tanh (refC1 x h c Wih Whh b Ai Ah j)

end

end Cert.Merge

end
-- ==== Proof.Algebra.lean ====
/-
  The algebra of the cell merge on the extended reals.

  A softmax-weighted average over n+1 rows can be written two ways: divide every weight by the
  normaliser first and then sum the weighted rows, or sum the weighted rows first and divide the
  total once. When every number involved is a real number and the normaliser is positive, the two
  are the same extended real. This file proves that, together with the facts that make the
  hypothesis available: a logistic and a hyperbolic tangent are always real numbers, the exponential
  of a logistic is a positive real number, and the small constant added to the normaliser is a
  nonnegative real number.
-/
import Idealize.ShloMosaic.PureOps.Ideal
import Mathlib.Algebra.BigOperators.Fin
import Mathlib.Data.EReal.Basic
import Mathlib.Data.EReal.Operations
import Mathlib.Data.EReal.Inv

noncomputable section

namespace Cert.MergeAlgebra

open Idealize.ShloMosaic
open scoped BigOperators

/-- A finite sum of real numbers, read in the extended reals term by term, is the real sum read
    in the extended reals. -/
theorem sum_coe {n : ℕ} (u : Fin n → ℝ) :
    ∑ k : Fin n, (u k : EReal) = ((∑ k : Fin n, u k : ℝ) : EReal) := by
  induction n with
  | zero => simp
  | succ n ih => rw [Fin.sum_univ_succ, Fin.sum_univ_succ, EReal.coe_add, ih]

/-- A finite dot product of real numbers, computed in the extended reals, is the real dot product. -/
theorem sum_mul_real {n : ℕ} (u v : Fin n → ℝ) :
    ∑ k : Fin n, (u k : EReal) * (v k : EReal) = ((∑ k : Fin n, u k * v k : ℝ) : EReal) := by
  simp only [← EReal.coe_mul]
  exact sum_coe _

/-- The logistic 1 / (1 + e^{-x}) of an extended real is a real number (0 at -∞, 1 at +∞). -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- The exponential of a logistic is a positive real number. -/
theorem exp_logistic_pos (x : EReal) :
    ∃ r : ℝ, 0 < r ∧ Ideal.exp (Ideal.logistic x) = (r : EReal) := by
  obtain ⟨s, hs⟩ := logistic_real x
  exact ⟨Real.exp s, Real.exp_pos s, by rw [hs, Ideal.exp_coe]⟩

/-- The hyperbolic tangent of an extended real is a real number (-1 at -∞, 1 at +∞). -/
theorem tanh_real (x : EReal) : ∃ r : ℝ, Ideal.tanh x = (r : EReal) := by
  induction x using EReal.rec with
  | bot => exact ⟨-1, by simp⟩
  | coe r => exact ⟨_, Ideal.tanh_coe r⟩
  | top => exact ⟨1, by simp⟩

/-- The single-precision pattern 0x2B8CBCCC (the float nearest to 1e-12) denotes a nonnegative
    real number: it is a normal number with a clear sign bit. -/
theorem eps_real : ∃ e : ℝ, 0 ≤ e ∧ Ideal.ofBits .f32 0x2B8CBCCC#32 = (e : EReal) := by
  simp [Ideal.ofBits, Ideal.ieee, -EReal.coe_mul]

/-- The softmax-weighted average over the n+1 rows (g, cc_0, …, cc_{n-1}) with positive real
    weights (wi, a_0, …, a_{n-1}) and the nonnegative real e added to the normaliser
    D = Σ_r a_r + wi + e: summing the rows, each multiplied by its weight divided by D, gives the
    weighted sum of the rows divided by D. Both sides are the real number
    (Σ_r cc_r · a_r + g · wi) / D, since D is a positive real and division by it is
    multiplication by the real 1 / D, which distributes over the finite sum. -/
theorem merge_div_sum {n : ℕ} (W M : Fin (n+1) → EReal) (a cc : Fin n → ℝ) (wi g e : ℝ) (E : EReal)
    (hW0 : W 0 = (wi : EReal)) (hWs : ∀ r : Fin n, W r.succ = (a r : EReal))
    (hM0 : M 0 = (g : EReal)) (hMs : ∀ r : Fin n, M r.succ = (cc r : EReal))
    (ha : ∀ r, 0 < a r) (hwi : 0 < wi) (hE : E = (e : EReal)) (he : 0 ≤ e) :
    (0 : EReal) + ∑ k : Fin (n+1), M k * Ideal.div (W k) (((0 : EReal) + ∑ k : Fin (n+1), W k) + E)
      = Ideal.div ((∑ r : Fin n, (cc r : EReal) * (a r : EReal)) + (g : EReal) * (wi : EReal))
          (((∑ r : Fin n, (a r : EReal)) + (wi : EReal)) + E) := by
  have hsa : 0 ≤ ∑ r : Fin n, a r := Finset.sum_nonneg (fun r _ => (ha r).le)
  have hD : (0 : ℝ) < (∑ r : Fin n, a r) + wi + e := by linarith
  have hden2 : ((∑ r : Fin n, (a r : EReal)) + (wi : EReal)) + E
      = (((∑ r : Fin n, a r) + wi + e : ℝ) : EReal) := by
    rw [hE, sum_coe, EReal.coe_add, EReal.coe_add]
  have hden1 : ((0 : EReal) + ∑ k : Fin (n+1), W k) + E
      = (((∑ r : Fin n, a r) + wi + e : ℝ) : EReal) := by
    rw [← hden2, zero_add, Fin.sum_univ_succ, hW0, add_comm (wi : EReal)]
    simp only [hWs]
  rw [hden1, hden2, zero_add, Ideal.div_coe hD.ne', Fin.sum_univ_succ, hM0, hW0]
  simp only [hMs, hWs, Ideal.div_coe hD.ne']
  generalize (1 / (∑ r : Fin n, a r + wi + e) : ℝ) = c
  rw [sum_mul_real]
  simp only [← EReal.coe_mul]
  rw [sum_coe, ← EReal.coe_add, ← EReal.coe_add, ← EReal.coe_mul]
  refine congrArg _ ?_
  rw [add_mul, Finset.sum_mul, add_comm]
  refine congrArg₂ _ (Finset.sum_congr rfl (fun r _ => ?_)) ?_
  · ring
  · ring

end Cert.MergeAlgebra

end
-- ==== Proof.RefForm.lean ====
/-
  The stacked form of the cell merge equals the merged cell.

  The merged cell is a softmax-weighted average of 32769 rows — the candidate and the 32768 child
  cells — divided once by the normaliser. Written over the stacked rows, with every weight divided
  by the normaliser first and the weighted rows summed afterwards, it is the same extended real as
  long as every child cell is a real number: the weights are then positive reals, the normaliser is
  a positive real, and division by it distributes over the finite sum.
-/
import proofs.«105386_j23965917512359_1_alg».proof.Proof.Spec
import proofs.«105386_j23965917512359_1_alg».proof.Proof.Algebra

noncomputable section

open scoped BigOperators

namespace Cert.Merge

open Idealize.ShloMosaic Idealize.ShloMosaic.ValueIdx Cert.MergeAlgebra

section
variable (x h : Row) (c : Cells) (Wih Whh : GateMat) (b : GateBias) (Ai Ah : AttMat)

/-- Stacked row 0 carries the candidate's weight e^{i}. -/
theorem Wk_zero (j : Fin 512) :
    Wk x h c Wih Whh b Ai Ah (0 : Fin (32768 + 1)) j = Ideal.exp (gI x h Wih Whh b j) := by
  have h0 : ((0 : Fin (32768 + 1)) : Fin 32769).val = 0 := rfl
  rw [Wk, dif_pos h0]

/-- Stacked row r + 1 carries child r's weight. -/
theorem Wk_succ (r : Fin 32768) (j : Fin 512) :
    Wk x h c Wih Whh b Ai Ah r.succ j = ew x c Ai Ah r j := by
  have hne : ¬ (r.succ : Fin 32769).val = 0 := by simp
  rw [Wk, dif_neg hne]
  exact congrArg (fun t => ew x c Ai Ah t j) (Fin.ext (by simp))

/-- Stacked row 0 is the candidate. -/
theorem Mk_zero (j : Fin 512) :
    Mk x h c Wih Whh b (0 : Fin (32768 + 1)) j = gG x h Wih Whh b j := by
  have h0 : ((0 : Fin (32768 + 1)) : Fin 32769).val = 0 := rfl
  rw [Mk, dif_pos h0]

/-- Stacked row r + 1 is child r's cell. -/
theorem Mk_succ (r : Fin 32768) (j : Fin 512) :
    Mk x h c Wih Whh b r.succ j = c (ix2 r j) := by
  have hne : ¬ (r.succ : Fin 32769).val = 0 := by simp
  rw [Mk, dif_neg hne]
  exact congrArg (fun t : Fin 32768 => c (ix2 t j)) (Fin.ext (by simp))

/-- When every child cell is a real number, normalising every weight first and then summing the
    weighted stacked rows gives the merged cell: the weights are exponentials of logistics, hence
    positive reals, the candidate is a hyperbolic tangent, hence real, and ε is a nonnegative real,
    so the normaliser is a positive real and division by it distributes over the sum. -/
theorem refC1_eq (hc : ∀ (r : Fin 32768) (j : Fin 512), ∃ v : ℝ, c (ix2 r j) = (v : EReal))
    (j : Fin 512) : refC1 x h c Wih Whh b Ai Ah j = c1 x h c Wih Whh b Ai Ah j := by
  have hew : ∀ r : Fin 32768, ∃ v : ℝ, 0 < v ∧ ew x c Ai Ah r j = (v : EReal) :=
    fun r => exp_logistic_pos _
  choose a ha haE using hew
  choose cc hcc using fun r : Fin 32768 => hc r j
  obtain ⟨wi, hwi, hwiE⟩ : ∃ v : ℝ, 0 < v ∧ Ideal.exp (gI x h Wih Whh b j) = (v : EReal) :=
    exp_logistic_pos _
  obtain ⟨g, hg⟩ : ∃ v : ℝ, gG x h Wih Whh b j = (v : EReal) := tanh_real _
  obtain ⟨e, he, heE⟩ : ∃ e : ℝ, 0 ≤ e ∧ eps = (e : EReal) := eps_real
  have key := merge_div_sum (n := 32768) (fun k => Wk x h c Wih Whh b Ai Ah k j)
    (fun k => Mk x h c Wih Whh b k j) a cc wi g e eps
    ((Wk_zero x h c Wih Whh b Ai Ah j).trans hwiE)
    (fun r => (Wk_succ x h c Wih Whh b Ai Ah r j).trans (haE r))
    ((Mk_zero x h c Wih Whh b j).trans hg)
    (fun r => (Mk_succ x h c Wih Whh b r j).trans (hcc r)) ha hwi heE he
  unfold refC1 refDen c1 num den
  refine key.trans ?_
  simp only [haE, hcc, hwiE, hg]

/-- The hidden state over the stacked form of the merged cell is the new hidden state. -/
theorem refH1_eq (hc : ∀ (r : Fin 32768) (j : Fin 512), ∃ v : ℝ, c (ix2 r j) = (v : EReal))
    (j : Fin 512) : refH1 x h c Wih Whh b Ai Ah j = h1 x h c Wih Whh b Ai Ah j := by
  unfold refH1 h1
  rw [refC1_eq x h c Wih Whh b Ai Ah hc j]

end

end Cert.Merge

end
-- ==== Proof.Finite.lean ====
/-
  The precondition `finite_inputs`, read back at the extended reals. The predicate compares the absolute value of every
  entry of every float argument with the pattern 0x7F800000 (the positive infinity of binary32), takes the conjunction
  over all entries of each argument and then the conjunction of the nine results. When the whole is true, every entry
  of every argument is a real number: neither of the two infinities.
-/
import proofs.«105386_j23965917512359_1_alg».proof.Pre_finite_inputs
import proofs.«105386_j23965917512359_1_alg».proof.Proof.Gen.Pre_finite_inputs
import Idealize.ShloMosaic.Lib.ReduceAll
import Idealize.ShloMosaic.Lib.ValueIdx
import Idealize.ShloMosaic.PureOps.Ideal

noncomputable section

namespace Cert.MergeFinite

open Idealize.ShloMosaic Idealize.ShloMosaic.ValueIdx

/-- The pattern 0x7F800000 (sign 0, exponent all ones, significand 0) denotes the top element. -/
theorem inf_pattern : Ideal.ofBits .f32 0x7F800000#32 = (⊤ : EReal) := by
  simp [Ideal.ofBits, Ideal.ieee]

/-- An extended real whose absolute value `max x (-x)` lies strictly below the top element is a real number. -/
theorem real_of_abs_lt_top (x : EReal) (h : Ideal.cmp .olt (max x (-x)) (⊤ : EReal) = 1#1) : ∃ v : ℝ, x = (v : EReal) := by
  induction x using EReal.rec with
  | bot => simp [Ideal.cmp] at h
  | coe v => exact ⟨v, rfl⟩
  | top => simp [Ideal.cmp] at h

instance : Subsingleton Cert.Pre_finite_inputs.S_.Idx := ⟨fun a b => funext fun d => d.elim0⟩

/-- A conjunction of two one-bit arrays that is 1 at an index has both conjuncts 1 there. -/
theorem andi_split {s : Shape} (x y : IVec s 1) (j : s.Idx) (h : andi x y j = 1#1) : x j = 1#1 ∧ y j = 1#1 :=
  IntOp.andi_eq_one.1 h

/-- One argument's test: if the conjunction over all entries of `|x| < +inf` is true, every entry of `x` is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x) (broadcastInDim s ![] hb
      (constant (F := Ideal) Cert.Pre_finite_inputs.S_ .f32 0x7F800000#32))) init hr hu ix0 = 1#1)
    (i : s.Idx) : ∃ v : ℝ, x i = (v : EReal) := by
  have h1 := Host.reduce_andi_all _ init hr hu ix0 e i
  refine real_of_abs_lt_top (x i) ?_
  rw [← inf_pattern]
  exact h1

/-- The whole predicate read back: the nine conjuncts are taken apart one by one (the chain is nested to the left, so
    each step peels the last argument's test off), and each test gives that argument's entries as reals. -/
theorem all_args_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1)) :
    (∀ i : Cert.Pre_finite_inputs.S1x512.Idx, ∃ v : ℝ, a0 i = (v : EReal))
    ∧ (∀ i : Cert.Pre_finite_inputs.S32768x512.Idx, ∃ v : ℝ, a1 i = (v : EReal))
    ∧ (∀ i : Cert.Pre_finite_inputs.S1x512.Idx, ∃ v : ℝ, a2 i = (v : EReal))
    ∧ (∀ i : Cert.Pre_finite_inputs.S1x512.Idx, ∃ v : ℝ, a3 i = (v : EReal))
    ∧ (∀ i : Cert.Pre_finite_inputs.S512x1536.Idx, ∃ v : ℝ, a4 i = (v : EReal))
    ∧ (∀ i : Cert.Pre_finite_inputs.S512x1536.Idx, ∃ v : ℝ, a5 i = (v : EReal))
    ∧ (∀ i : Cert.Pre_finite_inputs.S1536.Idx, ∃ v : ℝ, a6 i = (v : EReal))
    ∧ (∀ i : Cert.Pre_finite_inputs.S512x512.Idx, ∃ v : ℝ, a7 i = (v : EReal))
    ∧ (∀ i : Cert.Pre_finite_inputs.S512x512.Idx, ∃ v : ℝ, a8 i = (v : EReal)) := by
  have h0 := congrFun h ix0
  dsimp only [Cert.Pre_finite_inputs.fn, Cert.Pre_finite_inputs.fn_part1, Cert.Pre_finite_inputs.fn_part2] at h0
  obtain ⟨h7, e8⟩ := andi_split _ _ _ h0
  obtain ⟨h6, e7⟩ := andi_split _ _ _ h7
  obtain ⟨h5, e6⟩ := andi_split _ _ _ h6
  obtain ⟨h4, e5⟩ := andi_split _ _ _ h5
  obtain ⟨h3, e4⟩ := andi_split _ _ _ h4
  obtain ⟨h2, e3⟩ := andi_split _ _ _ h3
  obtain ⟨h1, e2⟩ := andi_split _ _ _ h2
  obtain ⟨e0, e1⟩ := andi_split _ _ _ h1
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7,
    all_real a8 _ _ _ _ e8⟩

/-- Every entry of the second argument is a real number. -/
theorem arg1_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S32768x512.Idx) : ∃ v : ℝ, a1 i = (v : EReal) :=
  (all_args_real a0 a1 a2 a3 a4 a5 a6 a7 a8 h).2.1 i

/-- Every entry of the first argument is a real number. -/
theorem arg0_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S1x512.Idx) : ∃ v : ℝ, a0 i = (v : EReal) :=
  (all_args_real a0 a1 a2 a3 a4 a5 a6 a7 a8 h).1 i

/-- Every entry of the third argument is a real number. -/
theorem arg2_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S1x512.Idx) : ∃ v : ℝ, a2 i = (v : EReal) :=
  (all_args_real a0 a1 a2 a3 a4 a5 a6 a7 a8 h).2.2.1 i

/-- Every entry of the fourth argument is a real number. -/
theorem arg3_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S1x512.Idx) : ∃ v : ℝ, a3 i = (v : EReal) :=
  (all_args_real a0 a1 a2 a3 a4 a5 a6 a7 a8 h).2.2.2.1 i

/-- Every entry of the fifth argument is a real number. -/
theorem arg4_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S512x1536.Idx) : ∃ v : ℝ, a4 i = (v : EReal) :=
  (all_args_real a0 a1 a2 a3 a4 a5 a6 a7 a8 h).2.2.2.2.1 i

/-- Every entry of the sixth argument is a real number. -/
theorem arg5_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S512x1536.Idx) : ∃ v : ℝ, a5 i = (v : EReal) :=
  (all_args_real a0 a1 a2 a3 a4 a5 a6 a7 a8 h).2.2.2.2.2.1 i

/-- Every entry of the seventh argument is a real number. -/
theorem arg6_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S1536.Idx) : ∃ v : ℝ, a6 i = (v : EReal) :=
  (all_args_real a0 a1 a2 a3 a4 a5 a6 a7 a8 h).2.2.2.2.2.2.1 i

/-- Every entry of the eighth argument is a real number. -/
theorem arg7_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S512x512.Idx) : ∃ v : ℝ, a7 i = (v : EReal) :=
  (all_args_real a0 a1 a2 a3 a4 a5 a6 a7 a8 h).2.2.2.2.2.2.2.1 i

/-- Every entry of the ninth argument is a real number. -/
theorem arg8_real [hP : Cert.Pre_finite_inputs.Facts] (a0 : FVec Ideal Cert.Pre_finite_inputs.S1x512 .f32)
    (a1 : FVec Ideal Cert.Pre_finite_inputs.S32768x512 .f32) (a2 a3 : FVec Ideal Cert.Pre_finite_inputs.S1x512 .f32)
    (a4 a5 : FVec Ideal Cert.Pre_finite_inputs.S512x1536 .f32) (a6 : FVec Ideal Cert.Pre_finite_inputs.S1536 .f32)
    (a7 a8 : FVec Ideal Cert.Pre_finite_inputs.S512x512 .f32)
    (h : Cert.Pre_finite_inputs.fn (F := Ideal) a0 a1 a2 a3 a4 a5 a6 a7 a8 = (fun _ => 1#1))
    (i : Cert.Pre_finite_inputs.S512x512.Idx) : ∃ v : ℝ, a8 i = (v : EReal) :=
  (all_args_real a0 a1 a2 a3 a4 a5 a6 a7 a8 h).2.2.2.2.2.2.2.2 i

end Cert.MergeFinite

end
-- ==== Proof.KernelFinal.lean ====
/-
  From the last grid point to the result arrays: each output window is written back once, after point 15,
  and its one block is the whole [1, 512] array, so the array ends holding exactly what the body left in
  the window's buffer at that point.
-/
import proofs.«105386_j23965917512359_1_alg».proof.Proof.Gen.KernelIdeal.Frame
import Idealize.ShloMosaic.Lib.Pipeline.Value
import Idealize.ShloMosaic.Lib.Tactic

noncomputable section

namespace Cert.KernelIdeal.Final

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The grid has sixteen points, so point 15 exists. -/
theorem h15 : 15 < cfg0.N := by rw [show cfg0.N = 16 from N_0]; decide

/-- The one write-back of window 8, at the last grid point, writes what the body left there: the block is the whole array. -/
theorem flushed8_eq (c : Dev nD) (res : Vec F S1x512 .f32) (hout : (outsAt0 m c 15 h15).1 = res)
    (t : Fin cfg0.N) (hf : (cfg0.win 8).flush t = true) :
    (dats m 0 c).flushed 8 t = ((cfg0.win 8).blk t).view.read (Elt F) (res : Buf (Elt F) ((c : Thread nD τ).loc main_v1_0)) := by
  have hN : cfg0.N = 16 := N_0
  have h3 : t.val = 15 := by have := (flush0_8 t).mp hf; have := t.isLt; omega
  obtain rfl : t = t0_15 := Fin.ext h3
  show (cfg0.win 8).cut (grid0.coords t0_15) ((dats m 0 c).after 8 t0_15) = _
  rw [after0_8]
  show (cfg0.win 8).cut (grid0.coords t0_15) ((outsAt0 m c 15 h15).1) = _
  rw [hout]
  have hz' : (fun a => win0_8.index t0_15 a * main_v1_0.ty.shape.size a) = fun _ => 0 := funext fun a => by fin_cases a <;> decide
  exact (Memref.read_access_unit_zero (Elt F) main_v1_0 hz' (fun a => by rw [congrFun hz' a]; simp) res).symm

/-- So after the run the array of window 8 holds that row. -/
theorem final8 (c : Dev nD) (res : Vec F S1x512 .f32) (hout : (outsAt0 m c 15 h15).1 = res) :
    (dats m 0 c).arrAt 8 cfg0.N = res :=
  (dats m 0 c).arrAt_eq_of_cover 8 res (flushed8_eq m c res hout) fun i =>
    ⟨t0_15, (flush0_8 t0_15).mpr rfl, by
      show i ∈ ((View.whole main_v1_0).slice (win0_8.rect t0_15)).set
      rw [View.set_slice_whole, Rect.mem_set_unit]
      intro a
      have h0 : (i 0 : Nat) < 1 := (i 0).isLt
      have h1 : (i 1 : Nat) < 512 := (i 1).isLt
      match a with
      | ⟨0, _⟩ => show win0_8.index t0_15 0 * win0_8.size 0 ≤ (i 0 : Nat) ∧ (i 0 : Nat) < win0_8.index t0_15 0 * win0_8.size 0 + win0_8.xsize (grid0.coords t0_15) 0
                  rw [show win0_8.index t0_15 0 * win0_8.size 0 = 0 from by decide +kernel, show win0_8.xsize (grid0.coords t0_15) 0 = 1 from by decide +kernel]; omega
      | ⟨1, _⟩ => show win0_8.index t0_15 1 * win0_8.size 1 ≤ (i 1 : Nat) ∧ (i 1 : Nat) < win0_8.index t0_15 1 * win0_8.size 1 + win0_8.xsize (grid0.coords t0_15) 1
                  rw [show win0_8.index t0_15 1 * win0_8.size 1 = 0 from by decide +kernel, show win0_8.xsize (grid0.coords t0_15) 1 = 512 from by decide +kernel]; omega⟩

/-- The one write-back of window 9, at the last grid point, writes what the body left there: the block is the whole array. -/
theorem flushed9_eq (c : Dev nD) (res : Vec F S1x512 .f32) (hout : (outsAt0 m c 15 h15).2.1 = res)
    (t : Fin cfg0.N) (hf : (cfg0.win 9).flush t = true) :
    (dats m 0 c).flushed 9 t = ((cfg0.win 9).blk t).view.read (Elt F) (res : Buf (Elt F) ((c : Thread nD τ).loc main_v1_1)) := by
  have hN : cfg0.N = 16 := N_0
  have h3 : t.val = 15 := by have := (flush0_9 t).mp hf; have := t.isLt; omega
  obtain rfl : t = t0_15 := Fin.ext h3
  show (cfg0.win 9).cut (grid0.coords t0_15) ((dats m 0 c).after 9 t0_15) = _
  rw [after0_9]
  show (cfg0.win 9).cut (grid0.coords t0_15) ((outsAt0 m c 15 h15).2.1) = _
  rw [hout]
  have hz' : (fun a => win0_9.index t0_15 a * main_v1_1.ty.shape.size a) = fun _ => 0 := funext fun a => by fin_cases a <;> decide
  exact (Memref.read_access_unit_zero (Elt F) main_v1_1 hz' (fun a => by rw [congrFun hz' a]; simp) res).symm

/-- So after the run the array of window 9 holds that row. -/
theorem final9 (c : Dev nD) (res : Vec F S1x512 .f32) (hout : (outsAt0 m c 15 h15).2.1 = res) :
    (dats m 0 c).arrAt 9 cfg0.N = res :=
  (dats m 0 c).arrAt_eq_of_cover 9 res (flushed9_eq m c res hout) fun i =>
    ⟨t0_15, (flush0_9 t0_15).mpr rfl, by
      show i ∈ ((View.whole main_v1_1).slice (win0_9.rect t0_15)).set
      rw [View.set_slice_whole, Rect.mem_set_unit]
      intro a
      have h0 : (i 0 : Nat) < 1 := (i 0).isLt
      have h1 : (i 1 : Nat) < 512 := (i 1).isLt
      match a with
      | ⟨0, _⟩ => show win0_9.index t0_15 0 * win0_9.size 0 ≤ (i 0 : Nat) ∧ (i 0 : Nat) < win0_9.index t0_15 0 * win0_9.size 0 + win0_9.xsize (grid0.coords t0_15) 0
                  rw [show win0_9.index t0_15 0 * win0_9.size 0 = 0 from by decide +kernel, show win0_9.xsize (grid0.coords t0_15) 0 = 1 from by decide +kernel]; omega
      | ⟨1, _⟩ => show win0_9.index t0_15 1 * win0_9.size 1 ≤ (i 1 : Nat) ∧ (i 1 : Nat) < win0_9.index t0_15 1 * win0_9.size 1 + win0_9.xsize (grid0.coords t0_15) 1
                  rw [show win0_9.index t0_15 1 * win0_9.size 1 = 0 from by decide +kernel, show win0_9.xsize (grid0.coords t0_15) 1 = 512 from by decide +kernel]; omega⟩

end Cert.KernelIdeal.Final

end
-- ==== Proof.KernelPay.lean ====
/-
  The kernel's arithmetic read one element at a time.

  Each value the kernel stores is restated by the generated skeleton as a pure term over the values
  loaded before it.  Here every such term is read at an index, on the extended reals, where a change
  of float format is the identity, a matrix product into the zero accumulator is the plain sum of
  products over the 512 contraction positions, and a sum over the rows of a tile is a sum over the
  2048 row numbers:
    the three gate rows are logistic / logistic / tanh of the three 512-column slices of
      (h·Whh + b) + x·Wih,
    the input's share of the attention logits is x·Ai,
    a tile's weights are e^{logistic (x·Ai + c·Ah)}, added into the two running sums
      Σ_r e^{alpha_r}  and  Σ_r c_r · e^{alpha_r},
    the merged cell is (W + g·e^{i}) / ((E + e^{i}) + ε) and the new hidden state o · tanh of it.
-/
import proofs.«105386_j23965917512359_1_alg».proof.Proof.Gen.KernelIdeal.Skeleton
import proofs.«105386_j23965917512359_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Merge

/-! ## The three matrix products

Each has one contracting axis of 512 positions: the left operand's columns against the right
operand's rows. -/

/-! ### A row times a gate weight matrix (512 by 1536) -/

/-- The left operand's row coordinate is the output's row. -/
theorem lhsG_0 (i : S1x1536.Idx) (q : dot_S1x512_S512x1536_S1x1536_1_0_0_1_n_n.contr.Idx) :
    (dot_S1x512_S512x1536_S1x1536_1_0_0_1_n_n.lhsIdx i q 0).val = (i 0).val := by
  unfold DotDims.lhsIdx
  rw [dif_neg (show ¬(0 : Fin S1x512.rank) ∈ dot_S1x512_S512x1536_S1x1536_1_0_0_1_n_n.lhsBatch by decide), dif_pos (show (0 : Fin S1x512.rank) ∈ dot_S1x512_S512x1536_S1x1536_1_0_0_1_n_n.lhsNonContracting by decide)]
  rfl
/-- The left operand's column coordinate is the contraction position. -/
theorem lhsG_1 (i : S1x1536.Idx) (q : dot_S1x512_S512x1536_S1x1536_1_0_0_1_n_n.contr.Idx) :
    (dot_S1x512_S512x1536_S1x1536_1_0_0_1_n_n.lhsIdx i q 1).val = (q ⟨0, by decide⟩).val :=
  dot_S1x512_S512x1536_S1x1536_1_0_0_1_n_n.lhsIdx_val_of_single rfl i q
/-- The right operand's row coordinate is the contraction position. -/
theorem rhsG_0 (i : S1x1536.Idx) (q : dot_S1x512_S512x1536_S1x1536_1_0_0_1_n_n.contr.Idx) :
    (dot_S1x512_S512x1536_S1x1536_1_0_0_1_n_n.rhsIdx i q 0).val = (q ⟨0, by decide⟩).val :=
  dot_S1x512_S512x1536_S1x1536_1_0_0_1_n_n.rhsIdx_val_of_single rfl i q
/-- The right operand's column coordinate is the output's column. -/
theorem rhsG_1 (i : S1x1536.Idx) (q : dot_S1x512_S512x1536_S1x1536_1_0_0_1_n_n.contr.Idx) :
    (dot_S1x512_S512x1536_S1x1536_1_0_0_1_n_n.rhsIdx i q 1).val = (i 1).val := by
  unfold DotDims.rhsIdx
  rw [dif_neg (show ¬(1 : Fin S512x1536.rank) ∈ dot_S1x512_S512x1536_S1x1536_1_0_0_1_n_n.rhsBatch by decide), dif_pos (show (1 : Fin S512x1536.rank) ∈ dot_S1x512_S512x1536_S1x1536_1_0_0_1_n_n.rhsNonContracting by decide)]
  rfl

/-- The product into the zero accumulator, at row p and column j, is Σ_k l(p,k) · r(k,j). -/
theorem matmulG_apply (l : FVec Ideal S1x512 .bf16) (r : FVec Ideal S512x1536 .bf16) (p : Fin 1) (j : Fin 1536) :
    matmul (F := Ideal) dot_S1x512_S512x1536_S1x1536_1_0_0_1_n_n none l r (constant (F := Ideal) S1x1536 .f32 0x00000000#32) (ix2 p j)
      = ∑ k : Fin 512, l (ix2 p k) * r (ix2 k j) := by
  simp only [matmul]
  rw [Ideal.matmul_constant_zero_apply, ← Equiv.sum_comp (contrEquiv1 dot_S1x512_S512x1536_S1x1536_1_0_0_1_n_n 512 rfl rfl).symm]
  refine Finset.sum_congr rfl fun k _ => ?_
  have hk := contrEquiv1_symm_val dot_S1x512_S512x1536_S1x1536_1_0_0_1_n_n 512 rfl rfl k
  have el : dot_S1x512_S512x1536_S1x1536_1_0_0_1_n_n.lhsIdx (ix2 p j) ((contrEquiv1 dot_S1x512_S512x1536_S1x1536_1_0_0_1_n_n 512 rfl rfl).symm k) = ix2 p k := funext fun a => Fin.ext (by
    match a with
    | ⟨0, _⟩ => exact lhsG_0 _ _
    | ⟨1, _⟩ => exact (lhsG_1 _ _).trans hk)
  have er : dot_S1x512_S512x1536_S1x1536_1_0_0_1_n_n.rhsIdx (ix2 p j) ((contrEquiv1 dot_S1x512_S512x1536_S1x1536_1_0_0_1_n_n 512 rfl rfl).symm k) = ix2 k j := funext fun a => Fin.ext (by
    match a with
    | ⟨0, _⟩ => exact (rhsG_0 _ _).trans hk
    | ⟨1, _⟩ => exact rhsG_1 _ _)
  rw [el, er]

/-! ### A row times an attention weight matrix (512 by 512) -/

/-- The left operand's row coordinate is the output's row. -/
theorem lhsA_0 (i : S1x512.Idx) (q : dot_S1x512_S512x512_S1x512_1_0_0_1_n_n.contr.Idx) :
    (dot_S1x512_S512x512_S1x512_1_0_0_1_n_n.lhsIdx i q 0).val = (i 0).val := by
  unfold DotDims.lhsIdx
  rw [dif_neg (show ¬(0 : Fin S1x512.rank) ∈ dot_S1x512_S512x512_S1x512_1_0_0_1_n_n.lhsBatch by decide), dif_pos (show (0 : Fin S1x512.rank) ∈ dot_S1x512_S512x512_S1x512_1_0_0_1_n_n.lhsNonContracting by decide)]
  rfl
/-- The left operand's column coordinate is the contraction position. -/
theorem lhsA_1 (i : S1x512.Idx) (q : dot_S1x512_S512x512_S1x512_1_0_0_1_n_n.contr.Idx) :
    (dot_S1x512_S512x512_S1x512_1_0_0_1_n_n.lhsIdx i q 1).val = (q ⟨0, by decide⟩).val :=
  dot_S1x512_S512x512_S1x512_1_0_0_1_n_n.lhsIdx_val_of_single rfl i q
/-- The right operand's row coordinate is the contraction position. -/
theorem rhsA_0 (i : S1x512.Idx) (q : dot_S1x512_S512x512_S1x512_1_0_0_1_n_n.contr.Idx) :
    (dot_S1x512_S512x512_S1x512_1_0_0_1_n_n.rhsIdx i q 0).val = (q ⟨0, by decide⟩).val :=
  dot_S1x512_S512x512_S1x512_1_0_0_1_n_n.rhsIdx_val_of_single rfl i q
/-- The right operand's column coordinate is the output's column. -/
theorem rhsA_1 (i : S1x512.Idx) (q : dot_S1x512_S512x512_S1x512_1_0_0_1_n_n.contr.Idx) :
    (dot_S1x512_S512x512_S1x512_1_0_0_1_n_n.rhsIdx i q 1).val = (i 1).val := by
  unfold DotDims.rhsIdx
  rw [dif_neg (show ¬(1 : Fin S512x512.rank) ∈ dot_S1x512_S512x512_S1x512_1_0_0_1_n_n.rhsBatch by decide), dif_pos (show (1 : Fin S512x512.rank) ∈ dot_S1x512_S512x512_S1x512_1_0_0_1_n_n.rhsNonContracting by decide)]
  rfl

/-- The product into the zero accumulator, at row p and column j, is Σ_k l(p,k) · r(k,j). -/
theorem matmulA_apply (l : FVec Ideal S1x512 .bf16) (r : FVec Ideal S512x512 .bf16) (p : Fin 1) (j : Fin 512) :
    matmul (F := Ideal) dot_S1x512_S512x512_S1x512_1_0_0_1_n_n none l r (constant (F := Ideal) S1x512 .f32 0x00000000#32) (ix2 p j)
      = ∑ k : Fin 512, l (ix2 p k) * r (ix2 k j) := by
  simp only [matmul]
  rw [Ideal.matmul_constant_zero_apply, ← Equiv.sum_comp (contrEquiv1 dot_S1x512_S512x512_S1x512_1_0_0_1_n_n 512 rfl rfl).symm]
  refine Finset.sum_congr rfl fun k _ => ?_
  have hk := contrEquiv1_symm_val dot_S1x512_S512x512_S1x512_1_0_0_1_n_n 512 rfl rfl k
  have el : dot_S1x512_S512x512_S1x512_1_0_0_1_n_n.lhsIdx (ix2 p j) ((contrEquiv1 dot_S1x512_S512x512_S1x512_1_0_0_1_n_n 512 rfl rfl).symm k) = ix2 p k := funext fun a => Fin.ext (by
    match a with
    | ⟨0, _⟩ => exact lhsA_0 _ _
    | ⟨1, _⟩ => exact (lhsA_1 _ _).trans hk)
  have er : dot_S1x512_S512x512_S1x512_1_0_0_1_n_n.rhsIdx (ix2 p j) ((contrEquiv1 dot_S1x512_S512x512_S1x512_1_0_0_1_n_n 512 rfl rfl).symm k) = ix2 k j := funext fun a => Fin.ext (by
    match a with
    | ⟨0, _⟩ => exact (rhsA_0 _ _).trans hk
    | ⟨1, _⟩ => exact rhsA_1 _ _)
  rw [el, er]

/-! ### A tile of 2048 child cells times an attention weight matrix -/

/-- The left operand's row coordinate is the output's row. -/
theorem lhsT_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column coordinate is the contraction position. -/
theorem lhsT_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- The right operand's row coordinate is the contraction position. -/
theorem rhsT_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- The right operand's column coordinate is the output's column. -/
theorem rhsT_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product into the zero accumulator, at row p and column j, is Σ_k l(p,k) · r(k,j). -/
theorem matmulT_apply (l : FVec Ideal S2048x512 .bf16) (r : FVec Ideal S512x512 .bf16) (p : Fin 2048) (j : Fin 512) :
    matmul (F := Ideal) dot_S2048x512_S512x512_S2048x512_1_0_0_1_n_n none l r (constant (F := Ideal) S2048x512 .f32 0x00000000#32) (ix2 p j)
      = ∑ k : Fin 512, l (ix2 p k) * r (ix2 k j) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p j) ((contrEquiv1 dot_S2048x512_S512x512_S2048x512_1_0_0_1_n_n 512 rfl rfl).symm k) = ix2 p k := funext fun a => Fin.ext (by
    match a with
    | ⟨0, _⟩ => exact lhsT_0 _ _
    | ⟨1, _⟩ => exact (lhsT_1 _ _).trans hk)
  have er : dot_S2048x512_S512x512_S2048x512_1_0_0_1_n_n.rhsIdx (ix2 p j) ((contrEquiv1 dot_S2048x512_S512x512_S2048x512_1_0_0_1_n_n 512 rfl rfl).symm k) = ix2 k j := funext fun a => Fin.ext (by
    match a with
    | ⟨0, _⟩ => exact (rhsT_0 _ _).trans hk
    | ⟨1, _⟩ => exact rhsT_1 _ _)
  rw [el, er]

/-! ## The gates -/

/-- The gate row (one row of 1536 columns) at column j: (h·Whh + b) + x·Wih. -/
theorem pay10_apply (h x : Vec Ideal S1x512 .f32) (Wih Whh : Vec Ideal S512x1536 .f32) (b2 : Vec Ideal S1x1536 .f32)
    (p : Fin 1) (j : Fin 1536) :
    k0_pay10 (F := Ideal) h x Wih Whh b2 (ix2 p j)
      = ((∑ k : Fin 512, h (ix2 p k) * Whh (ix2 k j)) + b2 (ix2 p j)) + ∑ k : Fin 512, x (ix2 p k) * Wih (ix2 k j) := by
  unfold k0_pay10 k0_pay9
  exact congr (congrArg HAdd.hAdd (congr (congrArg HAdd.hAdd (matmulG_apply _ _ p j)) (congrFun (shapeCast_self b2 _) _))) (matmulG_apply _ _ p j)

section
variable (x h : Vec Ideal S1x512 .f32) (Wih Whh : Vec Ideal S512x1536 .f32) (b2 : Vec Ideal S1x1536 .f32)
  (b : GateBias) (hb : ∀ j' : Fin 1536, b2 (ix2 (0 : Fin 1) j') = b (ix1 j'))
include hb

/-- With the bias row holding the bias, the gate row at column j is the specification's gate
    pre-activation. -/
theorem pay10_eq_gate (j : Fin 1536) :
    k0_pay10 (F := Ideal) h x Wih Whh b2 (ix2 (0 : Fin 1) j) = gate x h Wih Whh b j := by
  rw [pay10_apply, hb]
  rfl

/-- The stored input gate: the logistic of columns 0 … 511 of the gate row. -/
theorem pay11_apply (j : Fin 512) :
    k0_pay11 (F := Ideal) h x Wih Whh b2 (ix2 (0 : Fin 1) j) = gI x h Wih Whh b j := by
  unfold k0_pay11
  rw [shapeCast_self]
  refine (congrArg Ideal.logistic (slice2_axis1_apply 0 (k0_pay10 (F := Ideal) h x Wih Whh b2)
    slices_S1x1536_o0_0_S1x512 (0 : Fin 1) j ⟨j.val, by omega⟩ (Nat.zero_add _).symm)).trans ?_
  exact congrArg Ideal.logistic (pay10_eq_gate x h Wih Whh b2 b hb _)

/-- The stored output gate: the logistic of columns 512 … 1023 of the gate row. -/
theorem pay12_apply (j : Fin 512) :
    k0_pay12 (F := Ideal) h x Wih Whh b2 (ix2 (0 : Fin 1) j) = gO x h Wih Whh b j := by
  unfold k0_pay12
  rw [shapeCast_self]
  refine (congrArg Ideal.logistic (slice2_axis1_apply 512 (k0_pay10 (F := Ideal) h x Wih Whh b2)
    slices_S1x1536_o0_512_S1x512 (0 : Fin 1) j ⟨512 + j.val, by omega⟩ rfl)).trans ?_
  exact congrArg Ideal.logistic (pay10_eq_gate x h Wih Whh b2 b hb _)

/-- The stored candidate: tanh of columns 1024 … 1535 of the gate row. -/
theorem pay13_apply (j : Fin 512) :
    k0_pay13 (F := Ideal) h x Wih Whh b2 (ix2 (0 : Fin 1) j) = gG x h Wih Whh b j := by
  unfold k0_pay13
  rw [shapeCast_self]
  refine (congrArg Ideal.tanh (slice2_axis1_apply 1024 (k0_pay10 (F := Ideal) h x Wih Whh b2)
    slices_S1x1536_o0_1024_S1x512 (0 : Fin 1) j ⟨1024 + j.val, by omega⟩ rfl)).trans ?_
  exact congrArg Ideal.tanh (pay10_eq_gate x h Wih Whh b2 b hb _)

end

/-! ## The input's share of the attention logits, and the two zeroed accumulators -/

/-- The stored row x·Ai. -/
theorem rowA_apply (x : Vec Ideal S1x512 .f32) (Ai : Vec Ideal S512x512 .f32) (j : Fin 512) :
    k0_pay1 (k0_pay14 (F := Ideal) x Ai) (ix2 (0 : Fin 1) j) = awi x Ai j := by
  unfold k0_pay1 k0_pay14 k0_pay9
  rw [shapeCast_self]
  exact matmulA_apply _ _ 0 j

/-- The running sum of weights starts from zero. -/
theorem pay2_apply (j : Fin 512) : k0_pay2 (F := Ideal) (ix2 (0 : Fin 1) j) = 0 := by
  unfold k0_pay2
  rw [shapeCast_self]
  exact Ideal.ofBits_zero_f32

/-- The running weighted sum starts from zero. -/
theorem pay3_apply (j : Fin 512) : k0_pay3 (F := Ideal) (ix2 (0 : Fin 1) j) = 0 := by
  unfold k0_pay3
  rw [shapeCast_self]
  exact Ideal.ofBits_zero_f32

/-! ## One tile of child cells -/

section
variable (cb : Vec Ideal S2048x512 .f32) (Ah : Vec Ideal S512x512 .f32) (aw acc : Vec Ideal S1x512 .f32)

/-- Child r's weight in column j: e^{logistic (x·Ai + c_r·Ah)}, with the stored row x·Ai read
    on every row of the tile. -/
theorem pay4_apply (r : Fin 2048) (j : Fin 512) :
    k0_pay4 (F := Ideal) cb Ah aw (ix2 r j)
      = Ideal.exp (Ideal.logistic (aw (ix2 (0 : Fin 1) j) + ∑ k : Fin 512, cb (ix2 r k) * Ah (ix2 k j))) := by
  unfold k0_pay4
  exact congrArg (fun t => Ideal.exp (Ideal.logistic t))
    (congr (congrArg HAdd.hAdd (broadcastTo_1b_ab_apply aw _ r j)) (matmulT_apply _ _ r j))

end

/-- A sum over the 2048 rows of a tile, at column j. -/
theorem sumRows_apply (src : FVec Ideal S2048x512 .f32) (j : Fin 512) :
    multiReduction (F := Ideal) .add [0] S512 src 0x00000000#32 reduces_S2048x512_S512 (.inl rfl) rfl (ix1 j)
      = ∑ r : Fin 2048, src (ix2 r j) := by
  refine (Ideal.multiReduction_add_single src 0x00000000#32 reduces_S2048x512_S512 (.inl rfl) rfl (ix1 j)).trans ?_
  refine Finset.sum_congr rfl fun r _ => congrArg src (funext fun a => Fin.ext ?_)
  match a with
  | ⟨0, _⟩ => rfl
  | ⟨1, _⟩ => rfl

section
variable (cb : Vec Ideal S2048x512 .f32) (Ah : Vec Ideal S512x512 .f32) (aw acc : Vec Ideal S1x512 .f32)

/-- The running sum of weights after the tile: what it held plus the tile's 2048 weights. -/
theorem pay5_apply (j : Fin 512) :
    k0_pay5 (F := Ideal) cb Ah aw acc (ix2 (0 : Fin 1) j)
      = acc (ix2 (0 : Fin 1) j) + ∑ r : Fin 2048, k0_pay4 (F := Ideal) cb Ah aw (ix2 r j) := by
  unfold k0_pay5
  rw [shapeCast_self]
  exact congrArg (acc (ix2 (0 : Fin 1) j) + ·) ((shapeCast_a_1a_apply _ _ 0 j).trans (sumRows_apply _ j))

/-- The running weighted sum after the tile: what it held plus each cell times its weight. -/
theorem pay6_apply (j : Fin 512) :
    k0_pay6 (F := Ideal) cb Ah aw acc (ix2 (0 : Fin 1) j)
      = acc (ix2 (0 : Fin 1) j) + ∑ r : Fin 2048, cb (ix2 r j) * k0_pay4 (F := Ideal) cb Ah aw (ix2 r j) := by
  unfold k0_pay6
  rw [shapeCast_self]
  exact congrArg (acc (ix2 (0 : Fin 1) j) + ·) ((shapeCast_a_1a_apply _ _ 0 j).trans (sumRows_apply _ j))

end

/-! ## The last step -/

section
variable (iv E W g o : Vec Ideal S1x512 .f32)

/-- The merged cell: (W + g·e^{i}) / ((E + e^{i}) + ε), from the stored input gate i, the two
    running sums E and W, and the candidate g. -/
theorem pay7_apply (j : Fin 512) :
    k0_pay7 (F := Ideal) iv E W g (ix2 (0 : Fin 1) j)
      = Ideal.div (W (ix2 (0 : Fin 1) j) + g (ix2 (0 : Fin 1) j) * Ideal.exp (iv (ix2 (0 : Fin 1) j)))
          ((E (ix2 (0 : Fin 1) j) + Ideal.exp (iv (ix2 (0 : Fin 1) j))) + Cert.Merge.eps) := rfl

/-- The new hidden state: the output gate times tanh of the merged cell. -/
theorem pay8_apply (j : Fin 512) :
    k0_pay8 (F := Ideal) iv E W g o (ix2 (0 : Fin 1) j)
      = o (ix2 (0 : Fin 1) j) * Ideal.tanh (k0_pay7 (F := Ideal) iv E W g (ix2 (0 : Fin 1) j)) := rfl

end

end Cert.KernelIdeal.Pay

end
-- ==== Proof.KernelBlocks.lean ====
/-
  What each input window's block holds, read off the argument arrays: seven windows take their whole
  array at every grid point; the child cells come in sixteen tiles of 2048 rows; the bias row is the
  1536-vector laid out as one row.
-/
import proofs.«105386_j23965917512359_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Window 0's block is the whole array `main_arg0` at every point: its index map is constantly zero. -/
theorem iblk0_apply (c : Dev nD) (t : Fin cfg0.N) (y : S1x512.Idx) :
    (iblk m c 0 t : Vec F S1x512 .f32) y = m ((c : Thread nD τ).loc main_arg0) y := by
  unfold iblk
  rw [View.read_apply]
  show V m c main_arg0 _ = _
  rw [V_main_arg0]
  congr 1
  funext a
  apply Fin.ext
  match a with
  | ⟨0, _⟩ => show win0_0.index t 0 * 1 + 1 * (y 0).val = (y 0).val
              have h0 : win0_0.index t 0 = 0 := rfl
              rw [h0]; omega
  | ⟨1, _⟩ => show win0_0.index t 1 * 512 + 1 * (y 1).val = (y 1).val
              have h1 : win0_0.index t 1 = 0 := rfl
              rw [h1]; omega

/-- Window 1's block is the whole array `main_arg2` at every point: its index map is constantly zero. -/
theorem iblk1_apply (c : Dev nD) (t : Fin cfg0.N) (y : S1x512.Idx) :
    (iblk m c 1 t : Vec F S1x512 .f32) y = m ((c : Thread nD τ).loc main_arg2) y := by
  unfold iblk
  rw [View.read_apply]
  show V m c main_arg2 _ = _
  rw [V_main_arg2]
  congr 1
  funext a
  apply Fin.ext
  match a with
  | ⟨0, _⟩ => show win0_1.index t 0 * 1 + 1 * (y 0).val = (y 0).val
              have h0 : win0_1.index t 0 = 0 := rfl
              rw [h0]; omega
  | ⟨1, _⟩ => show win0_1.index t 1 * 512 + 1 * (y 1).val = (y 1).val
              have h1 : win0_1.index t 1 = 0 := rfl
              rw [h1]; omega

/-- Window 2's block is the whole array `main_arg4` at every point: its index map is constantly zero. -/
theorem iblk2_apply (c : Dev nD) (t : Fin cfg0.N) (y : S512x1536.Idx) :
    (iblk m c 2 t : Vec F S512x1536 .f32) y = m ((c : Thread nD τ).loc main_arg4) y := by
  unfold iblk
  rw [View.read_apply]
  show V m c main_arg4 _ = _
  rw [V_main_arg4]
  congr 1
  funext a
  apply Fin.ext
  match a with
  | ⟨0, _⟩ => show win0_2.index t 0 * 512 + 1 * (y 0).val = (y 0).val
              have h0 : win0_2.index t 0 = 0 := rfl
              rw [h0]; omega
  | ⟨1, _⟩ => show win0_2.index t 1 * 1536 + 1 * (y 1).val = (y 1).val
              have h1 : win0_2.index t 1 = 0 := rfl
              rw [h1]; omega

/-- Window 3's block is the whole array `main_arg5` at every point: its index map is constantly zero. -/
theorem iblk3_apply (c : Dev nD) (t : Fin cfg0.N) (y : S512x1536.Idx) :
    (iblk m c 3 t : Vec F S512x1536 .f32) y = m ((c : Thread nD τ).loc main_arg5) y := by
  unfold iblk
  rw [View.read_apply]
  show V m c main_arg5 _ = _
  rw [V_main_arg5]
  congr 1
  funext a
  apply Fin.ext
  match a with
  | ⟨0, _⟩ => show win0_3.index t 0 * 512 + 1 * (y 0).val = (y 0).val
              have h0 : win0_3.index t 0 = 0 := rfl
              rw [h0]; omega
  | ⟨1, _⟩ => show win0_3.index t 1 * 1536 + 1 * (y 1).val = (y 1).val
              have h1 : win0_3.index t 1 = 0 := rfl
              rw [h1]; omega

/-- Window 5's block is the whole array `main_arg7` at every point: its index map is constantly zero. -/
theorem iblk5_apply (c : Dev nD) (t : Fin cfg0.N) (y : S512x512.Idx) :
    (iblk m c 5 t : Vec F S512x512 .f32) y = m ((c : Thread nD τ).loc main_arg7) y := by
  unfold iblk
  rw [View.read_apply]
  show V m c main_arg7 _ = _
  rw [V_main_arg7]
  congr 1
  funext a
  apply Fin.ext
  match a with
  | ⟨0, _⟩ => show win0_5.index t 0 * 512 + 1 * (y 0).val = (y 0).val
              have h0 : win0_5.index t 0 = 0 := rfl
              rw [h0]; omega
  | ⟨1, _⟩ => show win0_5.index t 1 * 512 + 1 * (y 1).val = (y 1).val
              have h1 : win0_5.index t 1 = 0 := rfl
              rw [h1]; omega

/-- Window 6's block is the whole array `main_arg8` at every point: its index map is constantly zero. -/
theorem iblk6_apply (c : Dev nD) (t : Fin cfg0.N) (y : S512x512.Idx) :
    (iblk m c 6 t : Vec F S512x512 .f32) y = m ((c : Thread nD τ).loc main_arg8) y := by
  unfold iblk
  rw [View.read_apply]
  show V m c main_arg8 _ = _
  rw [V_main_arg8]
  congr 1
  funext a
  apply Fin.ext
  match a with
  | ⟨0, _⟩ => show win0_6.index t 0 * 512 + 1 * (y 0).val = (y 0).val
              have h0 : win0_6.index t 0 = 0 := rfl
              rw [h0]; omega
  | ⟨1, _⟩ => show win0_6.index t 1 * 512 + 1 * (y 1).val = (y 1).val
              have h1 : win0_6.index t 1 = 0 := rfl
              rw [h1]; omega

/-- The bias row the region finds: the 1536-vector reshaped to one row. -/
theorem V_bias (c : Dev nD) :
    (V m c main_v0 : Vec F S1x1536 .f32) = shapeCast S1x1536 (m ((c : Thread nD τ).loc main_arg6)) shapeCasts_S1536_S1x1536 := by
  dsimp only [Gen.V, Gen.hostOps0]; after_results; rfl

/-- Window 4's block is the whole bias row at every point. -/
theorem iblk4_eq (c : Dev nD) (t : Fin cfg0.N) (y : S1x1536.Idx) :
    (iblk m c 4 t : Vec F S1x1536 .f32) y = V m c main_v0 y := by
  unfold iblk
  rw [View.read_apply]
  show V m c main_v0 _ = _
  congr 1
  funext a
  apply Fin.ext
  match a with
  | ⟨0, _⟩ => show win0_4.index t 0 * 1 + 1 * (y 0).val = (y 0).val
              have h0 : win0_4.index t 0 = 0 := rfl
              rw [h0]; omega
  | ⟨1, _⟩ => show win0_4.index t 1 * 1536 + 1 * (y 1).val = (y 1).val
              have h1 : win0_4.index t 1 = 0 := rfl
              rw [h1]; omega

/-- Entry (0, j) of the bias row is entry j of the bias vector. -/
theorem iblk4_apply (c : Dev nD) (t : Fin cfg0.N) (j : Fin 1536) :
    (iblk m c 4 t : Vec F S1x1536 .f32) (ix2 (0 : Fin 1) j) = m ((c : Thread nD τ).loc main_arg6) (ix1 j) := by
  rw [iblk4_eq, V_bias]
  exact shapeCast_a_1a_apply _ _ (0 : Fin 1) j

/-- Window 7's block at point t is rows 2048·t … 2048·t + 2047 of the child cells. -/
theorem iblk7_apply (c : Dev nD) (t : Fin cfg0.N) (r : Fin 2048) (k : Fin 512) (hr : 2048 * t.val + r.val < 32768) :
    (iblk m c 7 t : Vec F S2048x512 .f32) (ix2 r k) = m ((c : Thread nD τ).loc main_arg1) (ix2 (⟨2048 * t.val + r.val, hr⟩ : Fin 32768) k) := by
  have hi : win0_7.index t 0 = t.val ∧ win0_7.index t 1 = 0 := by
    rcases fin_N0 t with rfl | rfl | rfl | rfl | rfl | rfl | rfl | rfl | rfl | rfl | rfl | rfl | rfl | rfl | rfl | rfl <;> decide
  unfold iblk
  rw [View.read_apply]
  show V m c main_arg1 _ = _
  rw [V_main_arg1]
  congr 1
  funext a
  apply Fin.ext
  match a with
  | ⟨0, _⟩ => show win0_7.index t 0 * 2048 + 1 * r.val = 2048 * t.val + r.val
              rw [hi.1]; omega
  | ⟨1, _⟩ => show win0_7.index t 1 * 512 + 1 * k.val = k.val
              rw [hi.2]; omega

end Cert.KernelIdeal.Blocks

end
-- ==== Proof.KernelPieces.lean ====
/-
  What each control case of the streaming merge kernel leaves in the six carried scratch rows and in the two
  result rows, as closed terms over the blocks it reads.

  The grid has sixteen points. The first computes the gate rows and the projected input row and starts the two
  accumulators from zero; every point adds one tile's column sums to the accumulators; the last also forms the
  two results. Each lemma below reads one stored row back: a row stored once is its payload; an accumulator
  zeroed and updated in the same point is the update over the zero row; a row a point does not store is the
  row the point before left. In the comments `x·Aᵢ`, `c·Aₕ` and `gates` stand for the kernel's matrix products,
  which it takes on operands rounded to the half-width format and accumulates in single precision.
-/
import proofs.«105386_j23965917512359_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Pieces

open Cert.KernelIdeal Cert.KernelIdeal.Gen

variable {F : FTy → Type} [FloatOps F]

/-- The offsets of every store and load of the body are zero in both axes. -/
theorem hz : (![0, 0] : Fin 2 → Nat) = fun _ => 0 := funext fun a => by fin_cases a <;> rfl

/-! ## Point 0: the gate rows, the projected input row, and the two accumulators after their first update

At the first grid point the body computes the three gate rows from the input row, the hidden row, the two
weight matrices and the bias row; stores the projection of the input row through the first attention matrix;
zeroes the two accumulators, reads the zeros back, and adds the tile's column sums to them. -/

/-- The input-gate row `σ(gates[0:512])` left in the first scratch row. -/
theorem sA0 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay11 x1 x0 x2 x3 x4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-- The candidate row `tanh(gates[1024:1536])` left in the second scratch row. -/
theorem sA1 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay13 x1 x0 x2 x3 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-- The output-gate row `σ(gates[512:1024])` left in the third scratch row. -/
theorem sA2 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay12 x1 x0 x2 x3 x4 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-- The projected input row `x · Aᵢ` left in the fourth scratch row. -/
theorem sA3 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay1 (k0_pay14 x0 x5) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-- The running sum of weights after the first tile: the zero row plus the tile's column sums of `exp(σ(x·Aᵢ + c·Aₕ))`; the projected row it adds is the one stored just before, read back. -/
theorem sA4 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay5 x7 x6 (k0_pay1 (k0_pay14 x0 x5)) k0_pay2 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz, View.readCov_unit_zero (S := S1x512) _ hz]

/-- The running weighted sum after the first tile: the zero row plus the tile's column sums of `c ⊙ exp(σ(x·Aᵢ + c·Aₕ))`. -/
theorem sA5 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay6 x7 x6 (k0_pay1 (k0_pay14 x0 x5)) k0_pay3 := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S1x512) hz, View.readCov_unit_zero (S := S1x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz, View.readCov_unit_zero (S := S1x512) _ hz]

/-! ## Points 1 to 14: the four rows are carried unchanged, the accumulators take one more tile -/

/-- The input-gate row is not stored at a middle point: it is what the point before left. -/
theorem sB0 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs0 := rfl

/-- The candidate row is not stored at a middle point: it is what the point before left. -/
theorem sB1 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs1 := rfl

/-- The output-gate row is not stored at a middle point: it is what the point before left. -/
theorem sB2 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs2 := rfl

/-- The projected input row is not stored at a middle point: it is what the point before left. -/
theorem sB3 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs3 := rfl

/-- The running sum of weights takes the tile's column sums of `exp(σ(x·Aᵢ + c·Aₕ))`, over the carried projected row. -/
theorem sB4 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = k0_pay5 x7 x6 xs3 xs4 := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-- The running weighted sum takes the tile's column sums of `c ⊙ exp(σ(x·Aᵢ + c·Aₕ))`. -/
theorem sB5 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : ¬cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = k0_pay6 x7 x6 xs3 xs5 := by
  unfold sout0_B_5
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-! ## Point 15: one more tile, then the two results from the final accumulators and the carried gate rows -/

/-- The input-gate row is not stored at the last point either. -/
theorem sC0 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs0 := rfl

/-- The candidate row is not stored at the last point either. -/
theorem sC1 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs1 := rfl

/-- The output-gate row is not stored at the last point either. -/
theorem sC2 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs2 := rfl

/-- The projected input row is not stored at the last point either. -/
theorem sC3 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = xs3 := rfl

/-- The running sum of weights after the last tile. -/
theorem sC4 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = k0_pay5 x7 x6 xs3 xs4 := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-- The running weighted sum after the last tile. -/
theorem sC5 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    sout0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = k0_pay6 x7 x6 xs3 xs5 := by
  unfold sout0_C_5
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz]

/-- The new cell row: `(weighted + g ⊙ exp i) / (weights + exp i + ε)` over the accumulators as just updated (read back after their stores) and the carried gate rows. -/
theorem oC9 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = k0_pay7 xs0 (k0_pay5 x7 x6 xs3 xs4) (k0_pay6 x7 x6 xs3 xs5) xs1 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz, View.readCov_unit_zero (S := S1x512) _ hz]

/-- The new hidden row: `o ⊙ tanh` of the new cell row. -/
theorem oC8 (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S512x1536 .f32) (harg3 : arg3.IsWhole) (arg4 : Memref sig .tc .vmem S512x1536 .f32) (harg4 : arg4.IsWhole) (arg5 : Memref sig .tc .vmem S1x1536 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (hc0 : ¬cond0_0 i) (hc1 : cond0_1 i)
    (x0 : Vec F S1x512 .f32) (x1 : Vec F S1x512 .f32) (x2 : Vec F S512x1536 .f32) (x3 : Vec F S512x1536 .f32) (x4 : Vec F S1x1536 .f32) (x5 : Vec F S512x512 .f32) (x6 : Vec F S512x512 .f32) (x7 : Vec F S2048x512 .f32) (xs0 : Vec F S1x512 .f32) (xs1 : Vec F S1x512 .f32) (xs2 : Vec F S1x512 .f32) (xs3 : Vec F S1x512 .f32) (xs4 : Vec F S1x512 .f32) (xs5 : Vec F S1x512 .f32) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5 = k0_pay8 xs0 (k0_pay5 x7 x6 xs3 xs4) (k0_pay6 x7 x6 xs3 xs5) xs1 xs2 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x512) hz, View.ld_unit_zero (S := S512x1536) hz, View.ld_unit_zero (S := S1x1536) hz, View.ld_unit_zero (S := S512x512) hz, View.ld_unit_zero (S := S2048x512) hz, View.readCov_unit_zero (S := S1x512) _ hz]

end Cert.KernelIdeal.Pieces

end
-- ==== Proof.KernelInduct.lean ====
/-
  What the six scratch rows and the two result rows hold point by point, in closed form.

  The gate rows and the projected input row are computed once, at the first of the sixteen grid points, and only
  carried afterwards; the two accumulators are ordered chains of additions, one link per point, each link the
  column sums over the tile of child cells streamed in at that point; the last point divides the weighted chain
  (plus the candidate's term) by the chain of weights (plus the input gate's weight and a small constant) and
  gates the result. The statements are over any float family.
-/
import proofs.«105386_j23965917512359_1_alg».proof.Proof.KernelPieces
import Idealize.ShloMosaic.Lib.Pipeline.Value
import Idealize.ShloMosaic.Lib.Tactic

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Pieces

open Cert.KernelIdeal Cert.KernelIdeal.Gen

variable {F : FTy → Type} [FloatOps F]

variable (m : (ℓ : Loc nD τ sig) → Buf (Elt F) ℓ)

/-! ## The blocks each point reads, at their literal shapes -/

/-- The input row `x` (1 × 512). -/
abbrev bx (c : Dev nD) (t : Fin cfg0.N) : Vec F S1x512 .f32 := iblk m c 0 t
/-- The previous hidden row `h₀` (1 × 512). -/
abbrev bh (c : Dev nD) (t : Fin cfg0.N) : Vec F S1x512 .f32 := iblk m c 1 t
/-- The input-to-gates weight matrix (512 × 1536). -/
abbrev bWih (c : Dev nD) (t : Fin cfg0.N) : Vec F S512x1536 .f32 := iblk m c 2 t
/-- The hidden-to-gates weight matrix (512 × 1536). -/
abbrev bWhh (c : Dev nD) (t : Fin cfg0.N) : Vec F S512x1536 .f32 := iblk m c 3 t
/-- The bias row (1 × 1536). -/
abbrev bb (c : Dev nD) (t : Fin cfg0.N) : Vec F S1x1536 .f32 := iblk m c 4 t
/-- The attention matrix `Aᵢ` applied to the input row (512 × 512). -/
abbrev bAi (c : Dev nD) (t : Fin cfg0.N) : Vec F S512x512 .f32 := iblk m c 5 t
/-- The attention matrix `Aₕ` applied to the child cells (512 × 512). -/
abbrev bAh (c : Dev nD) (t : Fin cfg0.N) : Vec F S512x512 .f32 := iblk m c 6 t
/-- The tile of 2048 child-cell rows the point streams in (2048 × 512). -/
abbrev bc (c : Dev nD) (t : Fin cfg0.N) : Vec F S2048x512 .f32 := iblk m c 7 t

/-- The first grid point. -/
abbrev t0 : Fin cfg0.N := t0_0

/-! ## The four rows fixed at the first point, and the two running sums -/

/-- The input-gate row `i = σ(gates[0:512])`, from the blocks of the first point. -/
def rowI (c : Dev nD) : Vec F S1x512 .f32 := k0_pay11 (bh m c t0) (bx m c t0) (bWih m c t0) (bWhh m c t0) (bb m c t0)
/-- The candidate row `g = tanh(gates[1024:1536])`. -/
def rowG (c : Dev nD) : Vec F S1x512 .f32 := k0_pay13 (bh m c t0) (bx m c t0) (bWih m c t0) (bWhh m c t0) (bb m c t0)
/-- The output-gate row `o = σ(gates[512:1024])`. -/
def rowO (c : Dev nD) : Vec F S1x512 .f32 := k0_pay12 (bh m c t0) (bx m c t0) (bWih m c t0) (bWhh m c t0) (bb m c t0)
/-- The projected input row `x · Aᵢ`. -/
def rowA (c : Dev nD) : Vec F S1x512 .f32 := k0_pay1 (k0_pay14 (bx m c t0) (bAi m c t0))

/-- The sum of weights after point `n`: from the zero row, each point `k ≤ n` in order adds the column sums of
    `exp(σ(x·Aᵢ + cₖ·Aₕ))` over its tile `cₖ` — an ordered chain of additions, one per point. -/
def accE (c : Dev nD) : (n : ℕ) → n < cfg0.N → Vec F S1x512 .f32
  | 0, h => k0_pay5 (bc m c ⟨0, h⟩) (bAh m c ⟨0, h⟩) (rowA m c) k0_pay2
  | n + 1, h => k0_pay5 (bc m c ⟨n + 1, h⟩) (bAh m c ⟨n + 1, h⟩) (rowA m c) (accE c n (Nat.lt_of_succ_lt h))

/-- The weighted sum after point `n`: likewise, each point adds the column sums of `cₖ ⊙ exp(σ(x·Aᵢ + cₖ·Aₕ))`. -/
def accW (c : Dev nD) : (n : ℕ) → n < cfg0.N → Vec F S1x512 .f32
  | 0, h => k0_pay6 (bc m c ⟨0, h⟩) (bAh m c ⟨0, h⟩) (rowA m c) k0_pay3
  | n + 1, h => k0_pay6 (bc m c ⟨n + 1, h⟩) (bAh m c ⟨n + 1, h⟩) (rowA m c) (accW c n (Nat.lt_of_succ_lt h))

/-- One more point: the chain of weights takes that point's tile. -/
theorem accE_succ (c : Dev nD) (n : ℕ) (h : n + 1 < cfg0.N) :
    accE m c (n + 1) h = k0_pay5 (bc m c ⟨n + 1, h⟩) (bAh m c ⟨n + 1, h⟩) (rowA m c) (accE m c n (Nat.lt_of_succ_lt h)) := rfl

/-- One more point: the weighted chain takes that point's tile. -/
theorem accW_succ (c : Dev nD) (n : ℕ) (h : n + 1 < cfg0.N) :
    accW m c (n + 1) h = k0_pay6 (bc m c ⟨n + 1, h⟩) (bAh m c ⟨n + 1, h⟩) (rowA m c) (accW m c n (Nat.lt_of_succ_lt h)) := rfl

/-! ## What the scratch rows hold after each point -/

/-- After point `n` the six scratch rows hold the three gate rows and the projected input row of the FIRST point —
    no later point stores them — and the two running sums up to `n`. By induction on the point: the first point
    is the starting case; a later point carries the four rows over and extends each chain by its tile, whether or
    not it is the last. -/
theorem scratch_eq (c : Dev nD) : ∀ (n : ℕ) (h : n < cfg0.N),
    (outsAt0 m c n h).2.2.1 = rowI m c ∧ (outsAt0 m c n h).2.2.2.1 = rowG m c ∧ (outsAt0 m c n h).2.2.2.2.1 = rowO m c
      ∧ (outsAt0 m c n h).2.2.2.2.2.1 = rowA m c ∧ (outsAt0 m c n h).2.2.2.2.2.2.1 = accE m c n h
      ∧ (outsAt0 m c n h).2.2.2.2.2.2.2 = accW m c n h
  | 0, h => by
    have h0 : (⟨0, h⟩ : Fin cfg0.N).val % 16 = 0 := rfl
    have h1 : ¬(⟨0, h⟩ : Fin cfg0.N).val % 16 = 15 := by dsimp only; omega
    rw [outsAt0_A m c ⟨0, h⟩ h0 h1]
    dsimp only
    exact ⟨sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩),
      sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩),
      sA2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩),
      sA3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩),
      sA4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩),
      sA5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)⟩
  | n + 1, h => by
    have hN : cfg0.N = 16 := N_0
    obtain ⟨e0, e1, e2, e3, e4, e5⟩ := scratch_eq c n (Nat.lt_of_succ_lt h)
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      exact ⟨(sC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e0,
        (sC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e1,
        (sC2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e2,
        (sC3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e3,
        (sC4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans (congrArg₂ (k0_pay5 (bc m c ⟨n + 1, h⟩) (bAh m c ⟨n + 1, h⟩)) e3 e4),
        (sC5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans (congrArg₂ (k0_pay6 (bc m c ⟨n + 1, h⟩) (bAh m c ⟨n + 1, h⟩)) e3 e5)⟩
    · rw [outsAt0_B m c ⟨n + 1, h⟩ h0 h1]
      dsimp only
      exact ⟨(sB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e0,
        (sB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e1,
        (sB2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e2,
        (sB3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans e3,
        (sB4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans (congrArg₂ (k0_pay5 (bc m c ⟨n + 1, h⟩) (bAh m c ⟨n + 1, h⟩)) e3 e4),
        (sB5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans (congrArg₂ (k0_pay6 (bc m c ⟨n + 1, h⟩) (bAh m c ⟨n + 1, h⟩)) e3 e5)⟩

/-! ## The two results, formed at the last point -/

/-- At a point that forms the results, the new cell row is `(W + g ⊙ exp i) / (E + exp i + ε)` over the two sums
    `E`, `W` INCLUDING that point's tile, the rows `i`, `g` being those the point before carried. -/
theorem out9_step (c : Dev nD) (n : ℕ) (h : n + 1 < cfg0.N) (h1 : (n + 1) % 16 = 15) :
    (outsAt0 m c (n + 1) h).2.1
      = k0_pay7 (rowI m c) (accE m c (n + 1) h) (accW m c (n + 1) h) (rowG m c) := by
  have hN : cfg0.N = 16 := N_0
  obtain ⟨e0, e1, e2, e3, e4, e5⟩ := scratch_eq m c n (Nat.lt_of_succ_lt h)
  have h0 : ¬(⟨n + 1, h⟩ : Fin cfg0.N).val % 16 = 0 := by dsimp only; omega
  rw [outsAt0_C m c ⟨n + 1, h⟩ h0 h1]
  dsimp only
  refine (oC9 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans ?_
  rw [e0, e1, e3, e4, e5]
  rfl

/-- There the new hidden row is `o ⊙ tanh` of the new cell row. -/
theorem out8_step (c : Dev nD) (n : ℕ) (h : n + 1 < cfg0.N) (h1 : (n + 1) % 16 = 15) :
    (outsAt0 m c (n + 1) h).1
      = k0_pay8 (rowI m c) (accE m c (n + 1) h) (accW m c (n + 1) h) (rowG m c) (rowO m c) := by
  have hN : cfg0.N = 16 := N_0
  obtain ⟨e0, e1, e2, e3, e4, e5⟩ := scratch_eq m c n (Nat.lt_of_succ_lt h)
  have h0 : ¬(⟨n + 1, h⟩ : Fin cfg0.N).val % 16 = 0 := by dsimp only; omega
  rw [outsAt0_C m c ⟨n + 1, h⟩ h0 h1]
  dsimp only
  refine (oC8 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2.2.1 (outsAt0 m c n (Nat.lt_of_succ_lt h)).2.2.2.1 (outsAt0 m c n (Nat.lt_of_succ_lt h)).2.2.2.2.1 (outsAt0 m c n (Nat.lt_of_succ_lt h)).2.2.2.2.2.1 (outsAt0 m c n (Nat.lt_of_succ_lt h)).2.2.2.2.2.2.1 (outsAt0 m c n (Nat.lt_of_succ_lt h)).2.2.2.2.2.2.2).trans ?_
  rw [e0, e1, e2, e3, e4, e5]
  rfl

/-- Point 15 is the one point that forms the results: the new cell row over the sums of all sixteen tiles. -/
theorem out9_eq (c : Dev nD) (h15 : 15 < cfg0.N) :
    (outsAt0 m c 15 h15).2.1 = k0_pay7 (rowI m c) (accE m c 15 h15) (accW m c 15 h15) (rowG m c) :=
  out9_step m c 14 h15 rfl

/-- The new hidden row over the sums of all sixteen tiles. -/
theorem out8_eq (c : Dev nD) (h15 : 15 < cfg0.N) :
    (outsAt0 m c 15 h15).1 = k0_pay8 (rowI m c) (accE m c 15 h15) (accW m c 15 h15) (rowG m c) (rowO m c) :=
  out8_step m c 14 h15 rfl

end Cert.KernelIdeal.Pieces

end
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.KernelValue.lean ====
/-
  The kernel's two result rows are the specification's merged cell and new hidden state of the
  argument arrays.

  At the first grid point the blocks the kernel reads are the whole argument arrays, so the three
  gate rows and the projected input row are the specification's gates and x·Ai.  Point t streams in
  rows 2048·t … 2048·t + 2047 of the child cells, so the weight the kernel forms for row r of that
  tile is the specification's weight of child 2048·t + r; the two running sums, started from zero,
  are after point n the sums over the first 2048·(n + 1) children, taken tile by tile, and after the
  sixteenth point the sums over all 32768 children.  The last point's quotient and gated tanh are
  then, term for term, the specification's c₁ and h₁.
-/
import proofs.«105386_j23965917512359_1_alg».proof.Proof.KernelPay
import proofs.«105386_j23965917512359_1_alg».proof.Proof.KernelBlocks
import proofs.«105386_j23965917512359_1_alg».proof.Proof.KernelInduct
import proofs.«105386_j23965917512359_1_alg».proof.Proof.LibBlockedSum
import proofs.«105386_j23965917512359_1_alg».proof.Proof.Spec

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Pay Cert.KernelIdeal.Blocks Cert.KernelIdeal.Pieces Cert.Merge

variable (m : (ℓ : Loc nD τ sig) → Buf (Elt Ideal) ℓ) (c : Dev nD)

/-! ## The argument arrays, named as the specification names them -/

/-- The input row x. -/
abbrev aX : Row := m ((c : Thread nD τ).loc main_arg0)
/-- The 32768 child cells. -/
abbrev aC : Cells := m ((c : Thread nD τ).loc main_arg1)
/-- The previous hidden row h. -/
abbrev aH : Row := m ((c : Thread nD τ).loc main_arg2)
/-- The gate weights applied to x. -/
abbrev aWih : GateMat := m ((c : Thread nD τ).loc main_arg4)
/-- The gate weights applied to h. -/
abbrev aWhh : GateMat := m ((c : Thread nD τ).loc main_arg5)
/-- The gate bias. -/
abbrev aB : GateBias := m ((c : Thread nD τ).loc main_arg6)
/-- The attention weights applied to x. -/
abbrev aAi : AttMat := m ((c : Thread nD τ).loc main_arg7)
/-- The attention weights applied to the child cells. -/
abbrev aAh : AttMat := m ((c : Thread nD τ).loc main_arg8)

/-! ## Seven blocks are whole arrays at every point -/

/-- At every point the block of x is the whole row x. -/
theorem bx_eq (t : Fin cfg0.N) : bx m c t = aX m c := funext (iblk0_apply m c t)
/-- At every point the block of h is the whole row h. -/
theorem bh_eq (t : Fin cfg0.N) : bh m c t = aH m c := funext (iblk1_apply m c t)
/-- At every point the block of the gate weights applied to x is the whole matrix. -/
theorem bWih_eq (t : Fin cfg0.N) : bWih m c t = aWih m c := funext (iblk2_apply m c t)
/-- At every point the block of the gate weights applied to h is the whole matrix. -/
theorem bWhh_eq (t : Fin cfg0.N) : bWhh m c t = aWhh m c := funext (iblk3_apply m c t)
/-- At every point the block of the attention weights applied to x is the whole matrix. -/
theorem bAi_eq (t : Fin cfg0.N) : bAi m c t = aAi m c := funext (iblk5_apply m c t)
/-- At every point the block of the attention weights applied to the cells is the whole matrix. -/
theorem bAh_eq (t : Fin cfg0.N) : bAh m c t = aAh m c := funext (iblk6_apply m c t)

/-! ## The four rows fixed at the first point -/

/-- The stored input gate is the specification's. -/
theorem rowI_apply (j : Fin 512) :
    rowI m c (ix2 (0 : Fin 1) j) = gI (aX m c) (aH m c) (aWih m c) (aWhh m c) (aB m c) j := by
  refine (pay11_apply (bx m c t0) (bh m c t0) (bWih m c t0) (bWhh m c t0) (bb m c t0) (aB m c) (iblk4_apply m c t0) j).trans ?_
  rw [bx_eq, bh_eq, bWih_eq, bWhh_eq]

/-- The stored output gate is the specification's. -/
theorem rowO_apply (j : Fin 512) :
    rowO m c (ix2 (0 : Fin 1) j) = gO (aX m c) (aH m c) (aWih m c) (aWhh m c) (aB m c) j := by
  refine (pay12_apply (bx m c t0) (bh m c t0) (bWih m c t0) (bWhh m c t0) (bb m c t0) (aB m c) (iblk4_apply m c t0) j).trans ?_
  rw [bx_eq, bh_eq, bWih_eq, bWhh_eq]

/-- The stored candidate is the specification's. -/
theorem rowG_apply (j : Fin 512) :
    rowG m c (ix2 (0 : Fin 1) j) = gG (aX m c) (aH m c) (aWih m c) (aWhh m c) (aB m c) j := by
  refine (pay13_apply (bx m c t0) (bh m c t0) (bWih m c t0) (bWhh m c t0) (bb m c t0) (aB m c) (iblk4_apply m c t0) j).trans ?_
  rw [bx_eq, bh_eq, bWih_eq, bWhh_eq]

/-- The stored projected input row is x·Ai. -/
theorem rowA_apply' (j : Fin 512) :
    rowA m c (ix2 (0 : Fin 1) j) = awi (aX m c) (aAi m c) j := by
  refine (rowA_apply (bx m c t0) (bAi m c t0) j).trans ?_
  rw [bx_eq, bAi_eq]

/-! ## One tile -/

/-- A position among the 32768 children, as a tile number and a row of the tile. -/
theorem tile_lt (t : Fin cfg0.N) (r : Fin 2048) : 2048 * t.val + r.val < 32768 := by
  have hN : cfg0.N = 16 := N_0
  have ht := t.isLt
  have hr := r.isLt
  omega

/-- The weight the kernel forms for row r of the tile of point t is the specification's weight of
    child 2048·t + r. -/
theorem tile_apply (t : Fin cfg0.N) (r : Fin 2048) (j : Fin 512) :
    k0_pay4 (F := Ideal) (bc m c t) (bAh m c t) (rowA m c) (ix2 r j)
      = ew (aX m c) (aC m c) (aAi m c) (aAh m c) ⟨2048 * t.val + r.val, tile_lt t r⟩ j := by
  refine (pay4_apply (bc m c t) (bAh m c t) (rowA m c) r j).trans ?_
  rw [rowA_apply']
  unfold ew
  refine congrArg (fun s => Ideal.exp (Ideal.logistic (awi (aX m c) (aAi m c) j + s))) ?_
  refine Finset.sum_congr rfl fun k _ => ?_
  exact congr (congrArg HMul.hMul (iblk7_apply m c t r k (tile_lt t r))) (iblk6_apply m c t (ix2 k j))

/-! ## The two running sums -/

/-- Child k's weight in column j as a function of the position k, zero beyond the last child. -/
def ewN (k : ℕ) (j : Fin 512) : EReal :=
  if hk : k < 32768 then ew (aX m c) (aC m c) (aAi m c) (aAh m c) ⟨k, hk⟩ j else 0
/-- Child k's cell times its weight, likewise. -/
def cewN (k : ℕ) (j : Fin 512) : EReal :=
  if hk : k < 32768 then aC m c (ix2 (⟨k, hk⟩ : Fin 32768) j) * ew (aX m c) (aC m c) (aAi m c) (aAh m c) ⟨k, hk⟩ j else 0

/-- At a position below 32768 it is that child's weight. -/
theorem ewN_of_lt (k : ℕ) (hk : k < 32768) (j : Fin 512) :
    ewN m c k j = ew (aX m c) (aC m c) (aAi m c) (aAh m c) ⟨k, hk⟩ j := by
  unfold ewN
  exact dif_pos hk
/-- At a position below 32768 it is that child's cell times its weight. -/
theorem cewN_of_lt (k : ℕ) (hk : k < 32768) (j : Fin 512) :
    cewN m c k j = aC m c (ix2 (⟨k, hk⟩ : Fin 32768) j) * ew (aX m c) (aC m c) (aAi m c) (aAh m c) ⟨k, hk⟩ j := by
  unfold cewN
  exact dif_pos hk

/-- The weights of the tile of point t, summed: children 2048·t … 2048·t + 2047. -/
theorem tile_sum (t : Fin cfg0.N) (j : Fin 512) :
    ∑ r : Fin 2048, k0_pay4 (F := Ideal) (bc m c t) (bAh m c t) (rowA m c) (ix2 r j)
      = ∑ r : Fin 2048, ewN m c (2048 * t.val + r.val) j :=
  Finset.sum_congr rfl fun r _ => (tile_apply m c t r j).trans (ewN_of_lt m c _ (tile_lt t r) j).symm

/-- The cells of the tile of point t times their weights, summed. -/
theorem ctile_sum (t : Fin cfg0.N) (j : Fin 512) :
    ∑ r : Fin 2048, ((bc m c t : Vec Ideal S2048x512 .f32) (ix2 r j) : EReal) * k0_pay4 (F := Ideal) (bc m c t) (bAh m c t) (rowA m c) (ix2 r j)
      = ∑ r : Fin 2048, cewN m c (2048 * t.val + r.val) j := by
  refine Finset.sum_congr rfl fun r _ => ?_
  rw [cewN_of_lt m c _ (tile_lt t r) j]
  exact congr (congrArg HMul.hMul (iblk7_apply m c t r j (tile_lt t r))) (tile_apply m c t r j)

/-- After point n the running sum of weights is the sum over the first n + 1 tiles. -/
theorem accE_apply (j : Fin 512) : ∀ (n : ℕ) (h : n < cfg0.N),
    accE m c n h (ix2 (0 : Fin 1) j) = ∑ s ∈ Finset.range (n + 1), ∑ r : Fin 2048, ewN m c (2048 * s + r.val) j
  | 0, h => by
    refine (pay5_apply (bc m c ⟨0, h⟩) (bAh m c ⟨0, h⟩) (rowA m c) (k0_pay2 (F := Ideal)) j).trans ?_
    rw [pay2_apply, zero_add, Finset.sum_range_one]
    exact tile_sum m c ⟨0, h⟩ j
  | n + 1, h => by
    rw [accE_succ]
    refine (pay5_apply (bc m c ⟨n + 1, h⟩) (bAh m c ⟨n + 1, h⟩) (rowA m c) (accE m c n (Nat.lt_of_succ_lt h)) j).trans ?_
    rw [accE_apply j n (Nat.lt_of_succ_lt h), Finset.sum_range_succ _ (n + 1)]
    exact congrArg (_ + ·) (tile_sum m c ⟨n + 1, h⟩ j)

/-- After point n the running weighted sum is the sum over the first n + 1 tiles. -/
theorem accW_apply (j : Fin 512) : ∀ (n : ℕ) (h : n < cfg0.N),
    accW m c n h (ix2 (0 : Fin 1) j) = ∑ s ∈ Finset.range (n + 1), ∑ r : Fin 2048, cewN m c (2048 * s + r.val) j
  | 0, h => by
    refine (pay6_apply (bc m c ⟨0, h⟩) (bAh m c ⟨0, h⟩) (rowA m c) (k0_pay3 (F := Ideal)) j).trans ?_
    rw [pay3_apply, zero_add, Finset.sum_range_one]
    exact ctile_sum m c ⟨0, h⟩ j
  | n + 1, h => by
    rw [accW_succ]
    refine (pay6_apply (bc m c ⟨n + 1, h⟩) (bAh m c ⟨n + 1, h⟩) (rowA m c) (accW m c n (Nat.lt_of_succ_lt h)) j).trans ?_
    rw [accW_apply j n (Nat.lt_of_succ_lt h), Finset.sum_range_succ _ (n + 1)]
    exact congrArg (_ + ·) (ctile_sum m c ⟨n + 1, h⟩ j)

/-- After the sixteenth point the running sum of weights is the sum over all 32768 children. -/
theorem accE15 (h15 : 15 < cfg0.N) (j : Fin 512) :
    accE m c 15 h15 (ix2 (0 : Fin 1) j) = ∑ r : Fin 32768, ew (aX m c) (aC m c) (aAi m c) (aAh m c) r j :=
  (accE_apply m c j 15 h15).trans ((Cert.BlockedSum.sum_blocks_fin (fun k => ewN m c k j) 16 2048).trans
    (Finset.sum_congr rfl fun r _ => ewN_of_lt m c r.val r.isLt j))

/-- After the sixteenth point the running weighted sum is the sum over all 32768 children. -/
theorem accW15 (h15 : 15 < cfg0.N) (j : Fin 512) :
    accW m c 15 h15 (ix2 (0 : Fin 1) j) = ∑ r : Fin 32768, aC m c (ix2 r j) * ew (aX m c) (aC m c) (aAi m c) (aAh m c) r j :=
  (accW_apply m c j 15 h15).trans ((Cert.BlockedSum.sum_blocks_fin (fun k => cewN m c k j) 16 2048).trans
    (Finset.sum_congr rfl fun r _ => cewN_of_lt m c r.val r.isLt j))

/-! ## The two results -/

/-- The quotient the last point forms is the specification's merged cell. -/
theorem c1_apply (h15 : 15 < cfg0.N) (j : Fin 512) :
    k0_pay7 (F := Ideal) (rowI m c) (accE m c 15 h15) (accW m c 15 h15) (rowG m c) (ix2 (0 : Fin 1) j)
      = c1 (aX m c) (aH m c) (aC m c) (aWih m c) (aWhh m c) (aB m c) (aAi m c) (aAh m c) j := by
  refine (pay7_apply _ _ _ _ j).trans ?_
  rw [rowI_apply, rowG_apply, accE15, accW15]
  rfl

/-- The row the kernel leaves in its second result is the merged cell C₁ of the argument arrays. -/
theorem out9_val (h15 : 15 < cfg0.N) :
    (outsAt0 m c 15 h15).2.1 = C1 (aX m c) (aH m c) (aC m c) (aWih m c) (aWhh m c) (aB m c) (aAi m c) (aAh m c) := by
  funext i
  obtain ⟨p, j, rfl⟩ : ∃ (p : Fin 1) (j : Fin 512), i = ix2 p j := ⟨i 0, i 1, eq_ix2 i⟩
  obtain rfl : p = 0 := Subsingleton.elim _ _
  rw [out9_eq m c h15]
  exact c1_apply m c h15 j

/-- The row the kernel leaves in its first result is the new hidden state H₁ of the argument arrays. -/
theorem out8_val (h15 : 15 < cfg0.N) :
    (outsAt0 m c 15 h15).1 = H1 (aX m c) (aH m c) (aC m c) (aWih m c) (aWhh m c) (aB m c) (aAi m c) (aAh m c) := by
  funext i
  obtain ⟨p, j, rfl⟩ : ∃ (p : Fin 1) (j : Fin 512), i = ix2 p j := ⟨i 0, i 1, eq_ix2 i⟩
  obtain rfl : p = 0 := Subsingleton.elim _ _
  rw [out8_eq m c h15]
  refine (pay8_apply _ _ _ _ _ j).trans ?_
  rw [rowO_apply, c1_apply]
  rfl

end Cert.KernelIdeal.KValue

end
-- ==== Proof.RefValue.lean ====
/-
  The reference program, read one operation at a time, computes the stacked average of the specification.

  Its 54 operations build, in order: the gate pre-activations h·Whh + b + x·Wih (1536 columns); the input and
  output gates as 1 / (1 + e^{-·}) of the first and second 512 columns, and the candidate as tanh of the last 512;
  one attention logit per child, 1 / (1 + e^{-(x·Ai + c_r·Ah)}); the 32769 stacked logits (the input gate on top of
  the children's), exponentiated; their column sums from zero, plus ε; every weight divided by that normaliser; the
  32769 stacked values (the candidate on top of the children's cells) times those quotients, summed from zero — the
  merged cell —; and the output gate times tanh of it — the new hidden state.

  Each lemma below reads one of these stages at an index given by its coordinates and names it in the
  specification's words; 1 / (1 + e^{-x}) is the logistic function by definition, the word 0x3F800000 is one and the
  zero word is zero. A stacked array at row k reads its first piece when k = 0 and its second piece at row k − 1
  otherwise.
-/
import proofs.«105386_j23965917512359_1_alg».proof.Proof.RefRead
import proofs.«105386_j23965917512359_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.ReadP Cert.Merge

/-- The word 0x3F800000 is the float one. -/
theorem ofBits_one : Ideal.ofBits .f32 0x3F800000#32 = 1 := by
  simp [Ideal.ofBits, Ideal.ieee, -EReal.coe_mul]; norm_num

/-! The index maps of the reference's operations, at an index given by its coordinates. -/

theorem lidx_v0 (p : Fin 1) (j : Fin 1536) (k : Fin 512) : lidx_main_v0 (ix2 p j) k = ix2 p k :=
  funext fun a => Fin.ext (by match a with | ⟨0, _⟩ => rfl | ⟨1, _⟩ => rfl)
theorem ridx_v0 (p : Fin 1) (j : Fin 1536) (k : Fin 512) : ridx_main_v0 (ix2 p j) k = ix2 k j :=
  funext fun a => Fin.ext (by match a with | ⟨0, _⟩ => rfl | ⟨1, _⟩ => rfl)
theorem idx_v1 (p : Fin 1) (j : Fin 1536) : idx_main_v1 (ix2 p j) = ix1 j :=
  funext fun a => Fin.ext (by match a with | ⟨0, _⟩ => rfl)
theorem lidx_v3 (p : Fin 1) (j : Fin 1536) (k : Fin 512) : lidx_main_v3 (ix2 p j) k = ix2 p k :=
  funext fun a => Fin.ext (by match a with | ⟨0, _⟩ => rfl | ⟨1, _⟩ => rfl)
theorem ridx_v3 (p : Fin 1) (j : Fin 1536) (k : Fin 512) : ridx_main_v3 (ix2 p j) k = ix2 k j :=
  funext fun a => Fin.ext (by match a with | ⟨0, _⟩ => rfl | ⟨1, _⟩ => rfl)
theorem idx_v5 (p : Fin 1) (j : Fin 512) : idx_main_v5 (ix2 p j) = ix2 p (⟨j.val, by omega⟩ : Fin 1536) :=
  funext fun a => Fin.ext (by match a with | ⟨0, _⟩ => rfl | ⟨1, _⟩ => rfl)
theorem idx_v6 (p : Fin 1) (j : Fin 512) : idx_main_v6 (ix2 p j) = ix2 p (⟨512 + j.val, by omega⟩ : Fin 1536) :=
  funext fun a => Fin.ext (by match a with | ⟨0, _⟩ => rfl | ⟨1, _⟩ => rfl)
theorem idx_v7 (p : Fin 1) (j : Fin 512) : idx_main_v7 (ix2 p j) = ix2 p (⟨1024 + j.val, by omega⟩ : Fin 1536) :=
  funext fun a => Fin.ext (by match a with | ⟨0, _⟩ => rfl | ⟨1, _⟩ => rfl)

section
variable (x0 x2 : (⟨S1x512, .f32⟩ : BufTy).Contents (Elt Ideal)) (x1 : (⟨S32768x512, .f32⟩ : BufTy).Contents (Elt Ideal))
  (x4 x5 : (⟨S512x1536, .f32⟩ : BufTy).Contents (Elt Ideal)) (x6 : (⟨S1536, .f32⟩ : BufTy).Contents (Elt Ideal))
  (x7 x8 : (⟨S512x512, .f32⟩ : BufTy).Contents (Elt Ideal))

/-- The gate pre-activations, column by column. -/
theorem gate_apply (p : Fin 1) (j : Fin 1536) :
    val_main_v4 (F := Ideal) x0 x2 x4 x5 x6 (ix2 p j) = gate x0 x2 x4 x5 x6 j := by
  obtain rfl : p = 0 := Subsingleton.elim _ _
  rw [val_main_v4_apply, val_main_v2_apply, val_main_v0_apply, val_main_v1_apply, val_main_v3_apply]
  simp only [lidx_v0, ridx_v0, idx_v1, lidx_v3, ridx_v3]
  rfl

/-- The input gate: the reference spells the logistic function as 1 / (1 + e^{-x}). -/
theorem gI_apply (p : Fin 1) (j : Fin 512) :
    val_main_v13 (F := Ideal) x0 x2 x4 x5 x6 (ix2 p j) = gI x0 x2 x4 x5 x6 j := by
  rw [val_main_v13_apply, val_main_v12_apply, val_main_cst_0_apply, val_main_v11_apply, val_main_v10_apply,
    val_main_cst_apply, val_main_v9_apply, val_main_v8_apply, val_main_v5_apply, idx_v5, gate_apply]
  simp only [Ideal.ofBits_def, Ideal.hostDivf_def, Ideal.addf_def, Ideal.hostUnary_exp_def, Ideal.hostNegf_def,
    Ideal.negf_def, ofBits_one]
  rfl

/-- The output gate. -/
theorem gO_apply (p : Fin 1) (j : Fin 512) :
    val_main_v19 (F := Ideal) x0 x2 x4 x5 x6 (ix2 p j) = gO x0 x2 x4 x5 x6 j := by
  rw [val_main_v19_apply, val_main_v18_apply, val_main_cst_2_apply, val_main_v17_apply, val_main_v16_apply,
    val_main_cst_1_apply, val_main_v15_apply, val_main_v14_apply, val_main_v6_apply, idx_v6, gate_apply]
  simp only [Ideal.ofBits_def, Ideal.hostDivf_def, Ideal.addf_def, Ideal.hostUnary_exp_def, Ideal.hostNegf_def,
    Ideal.negf_def, ofBits_one]
  rfl

/-- The candidate. -/
theorem gG_apply (p : Fin 1) (j : Fin 512) :
    val_main_v20 (F := Ideal) x0 x2 x4 x5 x6 (ix2 p j) = gG x0 x2 x4 x5 x6 j := by
  rw [val_main_v20_apply, val_main_v7_apply, idx_v7, gate_apply]
  rfl

end

theorem lidx_v21 (p : Fin 1) (j : Fin 512) (k : Fin 512) : lidx_main_v21 (ix2 p j) k = ix2 p k :=
  funext fun a => Fin.ext (by match a with | ⟨0, _⟩ => rfl | ⟨1, _⟩ => rfl)
theorem ridx_v21 (p : Fin 1) (j : Fin 512) (k : Fin 512) : ridx_main_v21 (ix2 p j) k = ix2 k j :=
  funext fun a => Fin.ext (by match a with | ⟨0, _⟩ => rfl | ⟨1, _⟩ => rfl)
theorem lidx_v22 (r : Fin 32768) (j : Fin 512) (k : Fin 512) : lidx_main_v22 (ix2 r j) k = ix2 r k :=
  funext fun a => Fin.ext (by match a with | ⟨0, _⟩ => rfl | ⟨1, _⟩ => rfl)
theorem ridx_v22 (r : Fin 32768) (j : Fin 512) (k : Fin 512) : ridx_main_v22 (ix2 r j) k = ix2 k j :=
  funext fun a => Fin.ext (by match a with | ⟨0, _⟩ => rfl | ⟨1, _⟩ => rfl)
theorem idx_v23 (r : Fin 32768) (j : Fin 512) : idx_main_v23 (ix2 r j) = ix2 (0 : Fin 1) j :=
  funext fun a => Fin.ext (by match a with | ⟨0, _⟩ => rfl | ⟨1, _⟩ => rfl)
theorem idx_v33 (j : Fin 512) (k : Fin 32769) : idx_main_v33 (ix1 j) k = ix2 k j :=
  funext fun a => Fin.ext (by match a with | ⟨0, _⟩ => rfl | ⟨1, _⟩ => rfl)
theorem idx_v34 (p : Fin 1) (j : Fin 512) : idx_main_v34 (ix2 p j) = ix1 j :=
  funext fun a => Fin.ext (by match a with | ⟨0, _⟩ => rfl)
theorem idx_v37 (k : Fin 32769) (j : Fin 512) : idx_main_v37 (ix2 k j) = ix2 (0 : Fin 1) j :=
  funext fun a => Fin.ext (by match a with | ⟨0, _⟩ => rfl | ⟨1, _⟩ => rfl)
theorem idx_v41 (j : Fin 512) (k : Fin 32769) : idx_main_v41 (ix1 j) k = ix2 k j :=
  funext fun a => Fin.ext (by match a with | ⟨0, _⟩ => rfl | ⟨1, _⟩ => rfl)
theorem idx_v42 (p : Fin 1) (j : Fin 512) : idx_main_v42 (ix2 p j) = ix1 j :=
  funext fun a => Fin.ext (by match a with | ⟨0, _⟩ => rfl)

section
variable (x0 x2 : (⟨S1x512, .f32⟩ : BufTy).Contents (Elt Ideal)) (x1 : (⟨S32768x512, .f32⟩ : BufTy).Contents (Elt Ideal))
  (x4 x5 : (⟨S512x1536, .f32⟩ : BufTy).Contents (Elt Ideal)) (x6 : (⟨S1536, .f32⟩ : BufTy).Contents (Elt Ideal))
  (x7 x8 : (⟨S512x512, .f32⟩ : BufTy).Contents (Elt Ideal))

/-- A child's attention logit. -/
theorem alpha_apply (r : Fin 32768) (j : Fin 512) :
    val_main_v30 (F := Ideal) x0 x1 x7 x8 (ix2 r j)
      = Ideal.logistic (awi x0 x7 j + ∑ k : Fin 512, x1 (ix2 r k) * x8 (ix2 k j)) := by
  rw [val_main_v30_apply, val_main_v29_apply, val_main_cst_4_apply, val_main_v28_apply, val_main_v27_apply,
    val_main_cst_3_apply, val_main_v26_apply, val_main_v25_apply, val_main_v24_apply, val_main_v23_apply,
    val_main_v22_apply, idx_v23, val_main_v21_apply]
  simp only [lidx_v21, ridx_v21, lidx_v22, ridx_v22, Ideal.ofBits_def, Ideal.hostDivf_def, Ideal.addf_def,
    Ideal.hostUnary_exp_def, Ideal.hostNegf_def, Ideal.negf_def, ofBits_one]
  rfl

/-- The stacked logits, exponentiated: row 0 is the input gate's weight, row r + 1 child r's. -/
theorem weight_apply (k : Fin 32769) (j : Fin 512) :
    val_main_v32 (F := Ideal) x0 x1 x2 x4 x5 x6 x7 x8 (ix2 k j) = Wk x0 x2 x1 x4 x5 x6 x7 x8 k j := by
  rw [val_main_v32_apply]
  unfold val_main_v31 Wk
  by_cases hk : k.val = 0
  · rw [dif_pos hk, concatenate_pair_apply_left (s₁ := S1x512) (s₂ := S32768x512) (0 : Fin S32769x512.rank) _ _ _ (ix2 k j) rfl (ix2 (0 : Fin 1) j)
      (fun b => by match b with | ⟨0, _⟩ => exact hk.symm | ⟨1, _⟩ => rfl), gI_apply]
    rfl
  · rw [dif_neg hk, concatenate_pair_apply_right (s₁ := S1x512) (s₂ := S32768x512) (0 : Fin S32769x512.rank) _ _ _ (ix2 k j) rfl rfl
      (ix2 (⟨k.val - 1, by omega⟩ : Fin 32768) j)
      (fun b hb => by match b, hb with | ⟨0, _⟩, hb => exact absurd rfl hb | ⟨1, _⟩, _ => rfl)
      (by show k.val - 1 + 1 = k.val; omega), alpha_apply]
    rfl

end

section
variable (x0 x2 : (⟨S1x512, .f32⟩ : BufTy).Contents (Elt Ideal)) (x1 : (⟨S32768x512, .f32⟩ : BufTy).Contents (Elt Ideal))
  (x4 x5 : (⟨S512x1536, .f32⟩ : BufTy).Contents (Elt Ideal)) (x6 : (⟨S1536, .f32⟩ : BufTy).Contents (Elt Ideal))
  (x7 x8 : (⟨S512x512, .f32⟩ : BufTy).Contents (Elt Ideal))

/-- The stacked values: row 0 is the candidate, row r + 1 child r's cell. -/
theorem value_apply (k : Fin 32769) (j : Fin 512) :
    val_main_v39 (F := Ideal) x0 x1 x2 x4 x5 x6 (ix2 k j) = Mk x0 x2 x1 x4 x5 x6 k j := by
  unfold val_main_v39 Mk
  by_cases hk : k.val = 0
  · rw [dif_pos hk, concatenate_pair_apply_left (s₁ := S1x512) (s₂ := S32768x512) (0 : Fin S32769x512.rank) _ _ _
      (ix2 k j) rfl (ix2 (0 : Fin 1) j)
      (fun b => by match b with | ⟨0, _⟩ => exact hk.symm | ⟨1, _⟩ => rfl), gG_apply]
  · rw [dif_neg hk, concatenate_pair_apply_right (s₁ := S1x512) (s₂ := S32768x512) (0 : Fin S32769x512.rank) _ _ _
      (ix2 k j) rfl rfl (ix2 (⟨k.val - 1, by omega⟩ : Fin 32768) j)
      (fun b hb => by match b, hb with | ⟨0, _⟩, hb => exact absurd rfl hb | ⟨1, _⟩, _ => rfl)
      (by show k.val - 1 + 1 = k.val; omega)]

/-- The normaliser: the stacked weights summed from zero, then ε. -/
theorem den_apply (p : Fin 1) (j : Fin 512) :
    val_main_v36 (F := Ideal) x0 x1 x2 x4 x5 x6 x7 x8 (ix2 p j) = refDen x0 x2 x1 x4 x5 x6 x7 x8 j := by
  rw [val_main_v36_apply, val_main_v35_apply, val_main_cst_6_apply, val_main_v34_apply, idx_v34, val_main_v33_apply,
    val_main_cst_5_apply]
  simp only [idx_v33, weight_apply, Ideal.ofBits_def, Ideal.addf_def, Ideal.ofBits_zero_f32]
  rfl

/-- The merged cell: every weight over the normaliser, times its row's value, summed from zero. -/
theorem ref_c1_at (p : Fin 1) (j : Fin 512) :
    val_main_v42 (F := Ideal) x0 x1 x2 x4 x5 x6 x7 x8 (ix2 p j) = refC1 x0 x2 x1 x4 x5 x6 x7 x8 j := by
  rw [val_main_v42_apply, idx_v42, val_main_v41_apply, val_main_cst_7_apply]
  simp only [idx_v41, val_main_v40_apply, val_main_v38_apply, val_main_v37_apply, idx_v37, value_apply, weight_apply,
    den_apply, Ideal.ofBits_def, Ideal.mulf_def, Ideal.hostDivf_def, Ideal.ofBits_zero_f32]
  rfl

/-- The new hidden state. -/
theorem ref_h1_at (p : Fin 1) (j : Fin 512) :
    val_main_v44 (F := Ideal) x0 x1 x2 x4 x5 x6 x7 x8 (ix2 p j) = refH1 x0 x2 x1 x4 x5 x6 x7 x8 j := by
  rw [val_main_v44_apply, val_main_v43_apply, gO_apply, ref_c1_at]
  simp only [Ideal.mulf_def, Ideal.hostUnary_tanh_def]
  unfold refH1
  rfl

/-- The reference's merged cell is the stacked average of the specification. -/
theorem ref_c1 (i : S1x512.Idx) :
    val_main_v42 (F := Ideal) x0 x1 x2 x4 x5 x6 x7 x8 i = refC1 x0 x2 x1 x4 x5 x6 x7 x8 (i 1) := by
  obtain ⟨p, q, rfl⟩ : ∃ (p : Fin 1) (q : Fin 512), i = ix2 p q := ⟨i 0, i 1, eq_ix2 i⟩
  exact ref_c1_at x0 x2 x1 x4 x5 x6 x7 x8 p q

/-- The reference's new hidden state is the output gate times tanh of that cell. -/
theorem ref_h1 (i : S1x512.Idx) :
    val_main_v44 (F := Ideal) x0 x1 x2 x4 x5 x6 x7 x8 i = refH1 x0 x2 x1 x4 x5 x6 x7 x8 (i 1) := by
  obtain ⟨p, q, rfl⟩ : ∃ (p : Fin 1) (q : Fin 512), i = ix2 p q := ⟨i 0, i 1, eq_ix2 i⟩
  exact ref_h1_at x0 x2 x1 x4 x5 x6 x7 x8 p q

end

end Cert.ReferenceIdeal.RefValue

end
-- ==== Proof.lean ====
/-
  The certificate of the lattice cell merge.

  The kernel streams the 32768 child cells in sixteen tiles; at the first grid point it computes the
  input, output and candidate gates and the input's share of the attention logits, and at every point
  it adds a tile's column sums to two running rows: the sum of the children's weights e^{alpha} and the
  sum of the children's cells times those weights. After the last tile it adds the candidate's own
  term g · e^{i} and weight e^{i}, adds ε to the normaliser, divides once, and forms h₁ = o · tanh c₁.
  The reference stacks the candidate on top of the children, exponentiates the 32769 logits, divides
  every weight by the normaliser, and sums the weighted rows.

  Over the extended reals the two agree because every weight is a positive real (the exponential of a
  logistic), the candidate is a real (a tanh) and the children's cells are real by the precondition:
  then dividing each term of a finite sum by the positive real normaliser is dividing the sum, and the
  order and grouping of a finite sum do not matter. That is the only place the precondition is used.
  The idealization rewrote nothing, so the preservation claim is trivial; the three frames are the
  programs' runs with the results forgotten.
-/
import proofs.«105386_j23965917512359_1_alg».proof.Defs
import proofs.«105386_j23965917512359_1_alg».proof.Proof.Gen.Kernel
import proofs.«105386_j23965917512359_1_alg».proof.Proof.Gen.Kernel.Frame
import proofs.«105386_j23965917512359_1_alg».proof.Proof.Gen.KernelIdeal
import proofs.«105386_j23965917512359_1_alg».proof.Proof.Gen.KernelIdeal.Frame
import proofs.«105386_j23965917512359_1_alg».proof.Proof.Gen.KernelIdeal.Value
import proofs.«105386_j23965917512359_1_alg».proof.Proof.Gen.ReferenceIdeal
import proofs.«105386_j23965917512359_1_alg».proof.Proof.Gen.Pre_finite_inputs
import proofs.«105386_j23965917512359_1_alg».proof.Proof.Spec
import proofs.«105386_j23965917512359_1_alg».proof.Proof.RefForm
import proofs.«105386_j23965917512359_1_alg».proof.Proof.Finite
import proofs.«105386_j23965917512359_1_alg».proof.Proof.KernelFinal
import proofs.«105386_j23965917512359_1_alg».proof.Proof.KernelValue
import proofs.«105386_j23965917512359_1_alg».proof.Proof.RefRun
import proofs.«105386_j23965917512359_1_alg».proof.Proof.RefRead
import proofs.«105386_j23965917512359_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the two results forgotten. -/
theorem frame_ri : Cert.frame_ReferenceIdeal := fun m ρ _ =>
  (θ_run Cert.ReferenceIdeal.defs _ _).mono (fun _ h c => (h c).2.2) (Cert.ReferenceIdeal.RunP.run (F := Ideal) m ρ)

/-- Under the precondition every child cell entry is a real number. -/
theorem cells_real (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 32768) (j : Fin 512) :
    ∃ v : ℝ, m ((c.tc : Thread Cert.KernelIdeal.nD Cert.KernelIdeal.τ).loc Cert.KernelIdeal.main_arg1) (ix2 r j) = (v : EReal) :=
  Cert.MergeFinite.arg1_real _ _ _ _ _ _ _ _ _ (hpre c) (ix2 r j)

/-- Both idealized programs end with h₁ and c₁ of the specification, as functions of the arguments. -/
theorem algebraic : Cert.algebraic_KernelIdeal_ReferenceIdeal := by
  intro m ρ m' ρ' hpre hagree
  refine ⟨fun c => Cert.Merge.H1 (m ((c.tc : Thread _ Cert.KernelIdeal.τ).loc Cert.KernelIdeal.main_arg0)) (m ((c.tc : Thread _ Cert.KernelIdeal.τ).loc Cert.KernelIdeal.main_arg2)) (m ((c.tc : Thread _ Cert.KernelIdeal.τ).loc Cert.KernelIdeal.main_arg1)) (m ((c.tc : Thread _ Cert.KernelIdeal.τ).loc Cert.KernelIdeal.main_arg4)) (m ((c.tc : Thread _ Cert.KernelIdeal.τ).loc Cert.KernelIdeal.main_arg5)) (m ((c.tc : Thread _ Cert.KernelIdeal.τ).loc Cert.KernelIdeal.main_arg6)) (m ((c.tc : Thread _ Cert.KernelIdeal.τ).loc Cert.KernelIdeal.main_arg7)) (m ((c.tc : Thread _ Cert.KernelIdeal.τ).loc Cert.KernelIdeal.main_arg8)),
    fun c => Cert.Merge.C1 (m ((c.tc : Thread _ Cert.KernelIdeal.τ).loc Cert.KernelIdeal.main_arg0)) (m ((c.tc : Thread _ Cert.KernelIdeal.τ).loc Cert.KernelIdeal.main_arg2)) (m ((c.tc : Thread _ Cert.KernelIdeal.τ).loc Cert.KernelIdeal.main_arg1)) (m ((c.tc : Thread _ Cert.KernelIdeal.τ).loc Cert.KernelIdeal.main_arg4)) (m ((c.tc : Thread _ Cert.KernelIdeal.τ).loc Cert.KernelIdeal.main_arg5)) (m ((c.tc : Thread _ Cert.KernelIdeal.τ).loc Cert.KernelIdeal.main_arg6)) (m ((c.tc : Thread _ Cert.KernelIdeal.τ).loc Cert.KernelIdeal.main_arg7)) (m ((c.tc : Thread _ Cert.KernelIdeal.τ).loc Cert.KernelIdeal.main_arg8)), ?_, ?_⟩
  · refine (θ_run Cert.KernelIdeal.defs _ _).mono (fun r h c => ⟨(h c).1.trans ?_, (h c).2.1.trans ?_, (h c).2.2⟩)
      (Cert.KernelIdeal.Value.run_blocks (F := Ideal) m ρ)
    · exact Cert.KernelIdeal.Final.final8 m c _ (Cert.KernelIdeal.KValue.out8_val m c Cert.KernelIdeal.Final.h15)
    · exact Cert.KernelIdeal.Final.final9 m c _ (Cert.KernelIdeal.KValue.out9_val m c Cert.KernelIdeal.Final.h15)
  · refine (θ_run Cert.ReferenceIdeal.defs _ _).mono (fun r h c => ⟨(h c).1.trans ?_, (h c).2.1.trans ?_, (h c).2.2⟩)
      (Cert.ReferenceIdeal.RunP.run (F := Ideal) m' ρ')
    · rw [Cert.ReferenceIdeal.ReadP.val_main_v44_eq]
      obtain ⟨h0, h1, h2, h3, h4, h5, h6, h7, h8⟩ := hagree c
      rw [h0, h1, h2, h4, h5, h6, h7, h8]
      funext i
      rw [Cert.ReferenceIdeal.RefValue.ref_h1]
      exact Cert.Merge.refH1_eq _ _ _ _ _ _ _ _ (cells_real m hpre c) (i 1)
    · obtain ⟨h0, h1, h2, h3, h4, h5, h6, h7, h8⟩ := hagree c
      rw [h0, h1, h2, h4, h5, h6, h7, h8]
      refine (Cert.ReferenceIdeal.ReadP.val_main_v42_eq _ _ _ _ _ _ _ _).trans ?_
      funext i
      rw [Cert.ReferenceIdeal.RefValue.ref_c1]
      exact Cert.Merge.refC1_eq _ _ _ _ _ _ _ _ (cells_real m hpre c) (i 1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
